-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S4096x128 .f32 .bf16
  ∧ IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S64x128 : Shape := ⟨2, ![64, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : FVec F S64x128 .f32) (main_arg2 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg2 main_v9
  let main_c_3 : IVec S_ 32 := constantI S_ 32 64#32
  let main_v11 : IVec S262144 32 := broadcastInDim S262144 ![] bcast_S_S262144 main_c_3
  let main_v12 : IVec S262144 1 := cmpi .slt main_arg2 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x128 : Shape := ⟨2, ![262144, 128]⟩
abbrev S64x128 : Shape := ⟨2, ![64, 128]⟩
abbrev S262144 : Shape := ⟨1, ![262144]⟩
abbrev S_ : Shape := ⟨0, ![]⟩
abbrev S64 : Shape := ⟨1, ![64]⟩
abbrev S262144x1 : Shape := ⟨2, ![262144, 1]⟩
abbrev S1x64 : Shape := ⟨2, ![1, 64]⟩
abbrev S64x256 : Shape := ⟨2, ![64, 256]⟩
abbrev S128x256 : Shape := ⟨2, ![128, 256]⟩
abbrev S16x128 : Shape := ⟨2, ![16, 128]⟩
abbrev S4096x128 : Shape := ⟨2, ![4096, 128]⟩
abbrev S4096x1 : Shape := ⟨2, ![4096, 1]⟩
abbrev S8x128 : Shape := ⟨2, ![8, 128]⟩
abbrev S4096x256 : Shape := ⟨2, ![4096, 256]⟩
abbrev S4096x64 : Shape := ⟨2, ![4096, 64]⟩
abbrev S4096 : Shape := ⟨1, ![4096]⟩
abbrev S1 : Shape := ⟨1, ![1]⟩
abbrev S1x1 : Shape := ⟨2, ![1, 1]⟩

abbrev nBuf : Space → Nat
  | .hbm => 48
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S262144, .i32⟩
  | .hbm, ⟨3, _⟩ => ⟨S_, .i32⟩
  | .hbm, ⟨4, _⟩ => ⟨S64, .i32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S_, .i32⟩
  | .hbm, ⟨14, _⟩ => ⟨S262144, .i32⟩
  | .hbm, ⟨15, _⟩ => ⟨S64, .i32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .i1⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S1x64, .f32⟩
  | .hbm, ⟨35, _⟩ => ⟨S262144x1, .i32⟩
  | .hbm, ⟨36, _⟩ => ⟨S64x128, .bf16⟩
  | .hbm, ⟨37, _⟩ => ⟨S64x128, .f32⟩
  | .hbm, ⟨38, _⟩ => ⟨S64x128, .f32⟩
  | .hbm, ⟨39, _⟩ => ⟨S64x128, .bf16⟩
  | .hbm, ⟨40, _⟩ => ⟨S64x256, .bf16⟩
  | .hbm, ⟨41, _⟩ => ⟨S_, .bf16⟩
  | .hbm, ⟨42, _⟩ => ⟨S64x128, .bf16⟩
  | .hbm, ⟨43, _⟩ => ⟨S64x256, .bf16⟩
  | .hbm, ⟨44, _⟩ => ⟨S128x256, .bf16⟩
  | .hbm, ⟨45, _⟩ => ⟨S16x128, .f32⟩
  | .hbm, ⟨46, _⟩ => ⟨S_, .f32⟩
  | .hbm, ⟨47, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S128x256, .bf16⟩
  | .local _ .vmem, ⟨3, _⟩ => ⟨S4096x1, .i32⟩
  | .local _ .vmem, ⟨4, _⟩ => ⟨S4096x1, .i32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S8x128, .f32⟩
  | .local _ .vmem, ⟨9, _⟩ => ⟨S8x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S64 : S_.BroadcastsInDim S64 (![] : Fin 0 → Fin S64.rank)
  bcast_S_S262144 : S_.BroadcastsInDim S262144 (![] : Fin 0 → Fin S262144.rank)
  bcast_S262144_S262144x1_0 : S262144.BroadcastsInDim S262144x1 (![0] : Fin 1 → Fin S262144x1.rank)
  shapeCasts_S64_S1x64 : S64.ShapeCasts S1x64
  shapeCasts_S262144_S262144x1 : S262144.ShapeCasts S262144x1
  bitsLt_bf16_f32 : FTy.bits .bf16 < FTy.bits .f32
  concatenates_S64x128_S64x128_S64x256_d1 : Shape.Concatenates [S64x128, S64x128] S64x256 1
  bcast_S_S64x128 : S_.BroadcastsInDim S64x128 (![] : Fin 0 → Fin S64x128.rank)
  concatenates_S64x256_S64x256_S128x256_d0 : Shape.Concatenates [S64x256, S64x256] S128x256 0
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S4096x128_o0_0_S4096x64 : S4096x128.Slices ![0, 0] S4096x64
  slices_S4096x128_o0_64_S4096x64 : S4096x128.Slices ![0, 64] S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x64_d1_w32 : S4096x64.Iotas .tc 32 [1]
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  reduces_S4096x1_S1 : S4096x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  scatter_S64_S262144x1_S262144_n_0_0_1_wf : ScatterDims.WF S64 S262144x1 S262144 [] [0] [0] 1
  dot_S4096x256_S128x256_S4096x128_1_1_0_0_n_n_wf : DotDims.WF S4096x256 S128x256 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S262144x1.size a
  hwx0_2 : ∀ i : grid0.Coords, EltTy.bits .i32 = 32 ∨ (Rect.block (s := S262144x1) S4096x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def dot_S4096x256_S128x256_S4096x128_1_1_0_0_n_n : DotDims S4096x256 S128x256 S4096x128 where
  lhsContracting := [1]
  rhsContracting := [1]
  lhsNonContracting := [0]
  rhsNonContracting := [0]
  lhsBatch := []
  rhsBatch := []
  wf := dot_S4096x256_S128x256_S4096x128_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S64x128 : Shape := ⟨2, ![64, 128]⟩
abbrev S262144 : Shape := ⟨1, ![262144]⟩
abbrev S128x64 : Shape := ⟨2, ![128, 64]⟩
abbrev S262144x64 : Shape := ⟨2, ![262144, 64]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S64 : Shape := ⟨1, ![64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S64x128, .f32⟩
  | .hbm, ⟨2, _⟩ => ⟨S262144, .i32⟩
  | .hbm, ⟨3, _⟩ => ⟨S128x64, .f32⟩
  | .hbm, ⟨4, _⟩ => ⟨S262144x64, .f32⟩
  | .hbm, ⟨5, _⟩ => ⟨S_, .f32⟩
  | .hbm, ⟨6, _⟩ => ⟨S262144x64, .f32⟩
  | .hbm, ⟨7, _⟩ => ⟨S262144x64, .f32⟩
  | .hbm, ⟨8, _⟩ => ⟨S262144x64, .f32⟩
  | .hbm, ⟨9, _⟩ => ⟨S262144x1, .i32⟩
  | .hbm, ⟨10, _⟩ => ⟨S_, .i32⟩
  | .hbm, ⟨11, _⟩ => ⟨S262144x1, .i32⟩
  | .hbm, ⟨12, _⟩ => ⟨S262144x1, .i1⟩
  | .hbm, ⟨13, _⟩ => ⟨S_, .i32⟩
  | .hbm, ⟨14, _⟩ => ⟨S262144x1, .i32⟩
  | .hbm, ⟨15, _⟩ => ⟨S262144x1, .i32⟩
  | .hbm, ⟨16, _⟩ => ⟨S262144x1, .i32⟩
  | .hbm, ⟨17, _⟩ => ⟨S262144x1x1, .i32⟩
  | .hbm, ⟨18, _⟩ => ⟨S1, .i32⟩
  | .hbm, ⟨19, _⟩ => ⟨S_, .i32⟩
  | .hbm, ⟨20, _⟩ => ⟨S262144x1x1, .i32⟩
  | .hbm, ⟨21, _⟩ => ⟨S262144x1x1, .i1⟩
  | .hbm, ⟨22, _⟩ => ⟨S1x1x1, .i32⟩
  | .hbm, ⟨23, _⟩ => ⟨S262144x1x1, .i32⟩
  | .hbm, ⟨24, _⟩ => ⟨S262144x1x1, .i1⟩
  | .hbm, ⟨25, _⟩ => ⟨S262144x1x1, .i1⟩
  | .hbm, ⟨26, _⟩ => ⟨S_, .i1⟩
  | .hbm, ⟨27, _⟩ => ⟨S262144x1, .i1⟩
  | .hbm, ⟨28, _⟩ => ⟨S262144x1, .f32⟩
  | .hbm, ⟨29, _⟩ => ⟨S_, .f32⟩
  | .hbm, ⟨30, _⟩ => ⟨S262144x1, .f32⟩
  | .hbm, ⟨31, _⟩ => ⟨S262144x1, .f32⟩
  | .hbm, ⟨32, _⟩ => ⟨S_, .f32⟩
  | .hbm, ⟨33, _⟩ => ⟨S64, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S_, .f32⟩
  | .hbm, ⟨43, _⟩ => ⟨S262144, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .i1⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144, .f32⟩
  | .hbm, ⟨57, _⟩ => ⟨S262144x1, .f32⟩
  | .hbm, ⟨58, _⟩ => ⟨S262144x64, .f32⟩
  | .hbm, ⟨59, _⟩ => ⟨S262144x64, .f32⟩
  | .hbm, ⟨60, _⟩ => ⟨S262144x64, .f32⟩
  | .hbm, ⟨61, _⟩ => ⟨S262144x64, .f32⟩
  | .hbm, ⟨62, _⟩ => ⟨S262144x64, .f32⟩
  | .hbm, ⟨63, _⟩ => ⟨S262144x64, .f32⟩
  | .hbm, ⟨64, _⟩ => ⟨S262144x64, .f32⟩
  | .hbm, ⟨65, _⟩ => ⟨S262144x64, .f32⟩
  | .hbm, ⟨66, _⟩ => ⟨S64, .i32⟩
  | .hbm, ⟨67, _⟩ => ⟨S1x64, .i32⟩
  | .hbm, ⟨68, _⟩ => ⟨S1x64, .i1⟩
  | .hbm, ⟨69, _⟩ => ⟨S262144x1, .i32⟩
  | .hbm, ⟨70, _⟩ => ⟨S262144x64, .i32⟩
  | .hbm, ⟨71, _⟩ => ⟨S262144x64, .i32⟩
  | .hbm, ⟨72, _⟩ => ⟨S262144x64, .i1⟩
  | .hbm, ⟨73, _⟩ => ⟨S262144x64, .i1⟩
  | .hbm, ⟨74, _⟩ => ⟨S262144x64, .i1⟩
  | .hbm, ⟨75, _⟩ => ⟨S_, .f32⟩
  | .hbm, ⟨76, _⟩ => ⟨S_, .f32⟩
  | .hbm, ⟨77, _⟩ => ⟨S262144x64, .f32⟩
  | .hbm, ⟨78, _⟩ => ⟨S262144x64, .f32⟩
  | .hbm, ⟨79, _⟩ => ⟨S262144x64, .f32⟩
  | .hbm, ⟨80, _⟩ => ⟨S262144x64, .f32⟩
  | .hbm, ⟨81, _⟩ => ⟨S_, .f32⟩
  | .hbm, ⟨82, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_call1_v0 : Ref sig .tc := ⟨.hbm, 76, rfl⟩
abbrev main_call1_v1 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_7 : Ref sig .tc := ⟨.hbm, 81, rfl⟩
abbrev main_v46 : Ref sig .tc := ⟨.hbm, 82, rfl⟩

abbrev nD : Nat := 1
abbrev τ : Topo := Topo.v7x

variable {F : FTy → Type} [FloatOps F]

class Facts₀ : Prop where
  transposes_S64x128_S128x64_1_0 : S64x128.Transposes [1, 0] S128x64
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S_S64 : S_.BroadcastsInDim S64 (![] : Fin 0 → Fin S64.rank)
  bcast_S_S262144 : S_.BroadcastsInDim S262144 (![] : Fin 0 → Fin S262144.rank)
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S262144x64_S_d0_1 : S262144x64.ReducesTo [0, 1] S_
  dot_S262144x128_S128x64_S262144x64_1_0_0_1_n_n_wf : DotDims.WF S262144x128 S128x64 S262144x64 [1] [0] [0] [1] [] []
  gather_S262144x64_S262144x1x1_S262144x1_n_1_0_0_1_2_11_wf : GatherDims.WF S262144x64 S262144x1x1 S262144x1 [] [1] [0] [1] [0] 2 ![1, 1]
  scatter_S64_S262144x1_S262144_n_0_0_1_wf : ScatterDims.WF S64 S262144x1 S262144 [] [0] [0] 1
  gather_S64_S262144x1_S262144_n_0_n_n_0_1_1_wf : GatherDims.WF S64 S262144x1 S262144 [] [0] [] [0] [] 1 ![1]

variable [Facts₀]

def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def gather_S262144x64_S262144x1x1_S262144x1_n_1_0_0_1_2_11 : GatherDims S262144x64 S262144x1x1 S262144x1 where
  offsetDims := []
  collapsedSliceDims := [1]
  operandBatchingDims := [0]
  startIndicesBatchingDims := [0]
  startIndexMap := [1]
  indexVectorDim := 2
  sliceSizes := ![1, 1]
  wf := gather_S262144x64_S262144x1x1_S262144x1_n_1_0_0_1_2_11_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def gather_S64_S262144x1_S262144_n_0_n_n_0_1_1 : GatherDims S64 S262144x1 S262144 where
  offsetDims := []
  collapsedSliceDims := [0]
  operandBatchingDims := []
  startIndicesBatchingDims := []
  startIndexMap := [0]
  indexVectorDim := 1
  sliceSizes := ![1]
  wf := gather_S64_S262144x1_S262144_n_0_n_n_0_1_1_wf

class Facts : Prop extends Facts₀ where

variable [Facts]
-- ==== Proof.RefRun.lean ====
/-
  The reference's run read back: every weakly fair execution of the host program ends with its result at the
  operations' composed term of the argument arrays, and that term read one operation at a time at an index.
-/
import proofs.«407241_j68152541053489_3_alg».proof.Proof.RefRunP
import proofs.«407241_j68152541053489_3_alg».proof.Proof.RefReadP
-- ==== Proof.Blocks.lean ====
/-
  Names, at their literal types, for what the one pallas_call reads at a grid point: the block of each of its six
  input windows (a 4096-row slab of f1 and of the label column; the packed centres; the three per-class rows), and
  for the three argument arrays of the program.
-/
import proofs.«407241_j68152541053489_3_alg».proof.Proof.Gen.KernelIdeal.Frame.Runs

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The 4096 × 128 slab of f1 that grid point t reads. -/
abbrev blk0 (c : Dev nD) (t : Fin cfg0.N) : Vec Ideal S4096x128 .f32 := iblk m c 0 t
/-- The packed centres, 128 × 256, the same at every point. -/
abbrev blk1 (c : Dev nD) (t : Fin cfg0.N) : Vec Ideal S128x256 .bf16 := iblk m c 1 t
/-- The 4096 labels of the slab, as a column. -/
abbrev blk2 (c : Dev nD) (t : Fin cfg0.N) : Vec Ideal S4096x1 .i32 := iblk m c 2 t
/-- The class sizes, as a row. -/
abbrev blk3 (c : Dev nD) (t : Fin cfg0.N) : Vec Ideal S1x64 .f32 := iblk m c 3 t
/-- The logs of the class sizes, as a row. -/
abbrev blk4 (c : Dev nD) (t : Fin cfg0.N) : Vec Ideal S1x64 .f32 := iblk m c 4 t
/-- The reciprocals of the class sizes, as a row. -/
abbrev blk5 (c : Dev nD) (t : Fin cfg0.N) : Vec Ideal S1x64 .f32 := iblk m c 5 t

/-- f1 as launched. -/
abbrev argF1 (c : Dev nD) : (⟨2, ![262144, 128]⟩ : Shape).Idx → EReal := m ((c : Thread nD τ).loc main_arg0)
/-- The centres as launched. -/
abbrev argCen (c : Dev nD) : (⟨2, ![64, 128]⟩ : Shape).Idx → EReal := m ((c : Thread nD τ).loc main_arg1)
/-- The labels as launched. -/
abbrev argLab (c : Dev nD) : (⟨1, ![262144]⟩ : Shape).Idx → BitVec 32 := m ((c : Thread nD τ).loc main_arg2)

/-- The sample that row r of grid point t's slab is: 4096 t + r (the 64 points in order cover the 262144 samples). -/
def rowOf (t : Fin cfg0.N) (r : Fin 4096) : Fin 262144 :=
  ⟨4096 * t.val + r.val, by have h : cfg0.N = 64 := N_0; have := t.isLt; have := r.isLt; omega⟩

end Cert.KernelIdeal.Blocks

end
-- ==== Proof.Spec.lean ====
/-
  The loss both programs compute, as one function of the argument arrays, and the laws that join the two arrangements.

  For sample i with class l = label i, logits L c = <f1 i, centre c> and class sizes n:
    the kernel's row is   ( Σ_{c present, c ≠ l}  softplus((L c − L l) · s + log n_l) ) · (1 / n_l),
    the reference's row   Σ_{c present, c ≠ l}  −log( e^{L l / T} / (e^{L l / T} + n_l · e^{L c / T}) ) / n_l,
  with T the temperature and s its exact reciprocal. Since e^{u} / (e^{u} + n e^{v}) = 1 / (1 + e^{v − u + log n}),
  the two rows are equal wherever the logits are finite and n_l ≥ 1; the stable form max(a,0) + log1p(e^{−|a|}) of
  softplus is log(1 + e^{a}) on the reals.
-/
import Idealize.ShloMosaic.PureOps.Ideal
import Idealize.ShloMosaic.Lib.ValueIdx

noncomputable section

open scoped BigOperators
open Idealize.ShloMosaic Idealize.ShloMosaic.ValueIdx

namespace Cert.Loss

/-- The factor on a logit gap: the exact reciprocal of the temperature. -/
def scale : EReal := ((268435456 / 13421773 : ℝ) : EReal)

/-- The temperature: the binary fraction 13421773 / 2^28. -/
def temp : EReal := Ideal.ofBits .f32 0x3D4CCCCD#32

/-- log(1 + e^a) in the arrangement that never exponentiates a positive number: max(a, 0) + log1p(e^{−|a|}). -/
def splus (a : EReal) : EReal := max a 0 + Ideal.log1p (Ideal.exp (0 - max (a - 0) (-(a - 0))))

/-- log of a class size, 0 for an empty class. -/
def logc (n : Fin 64 → ℕ) (c : Fin 64) : EReal := if 0 < n c then Ideal.log ((n c : ℝ) : EReal) else 0

/-- reciprocal of a class size, 0 for an empty class. -/
def invc (n : Fin 64 → ℕ) (c : Fin 64) : EReal := if 0 < n c then Ideal.div 1 ((n c : ℝ) : EReal) else 0

/-- One sample's loss, softplus arrangement: L its logits, n the class sizes, l its class. -/
def rowK (L : Fin 64 → EReal) (n : Fin 64 → ℕ) (l : Fin 64) : EReal :=
  (∑ c : Fin 64, if 0 < n c ∧ c ≠ l then splus ((L c - L l) * scale + logc n l) else 0) * invc n l

/-- One sample's term against one class, quotient arrangement: −log(pos / (pos + n_l · E_c)) / n_l for a present
    foreign class, 0 otherwise. -/
def termR (L : Fin 64 → EReal) (n : Fin 64 → ℕ) (l c : Fin 64) : EReal :=
  Ideal.div
    (if 0 < n c ∧ c ≠ l then
      -(Ideal.log (Ideal.div (Ideal.exp (Ideal.div (L l) temp))
          (Ideal.exp (Ideal.div (L l) temp) + ((n l : ℝ) : EReal) * Ideal.exp (Ideal.div (L c) temp))))
     else 0)
    ((n l : ℝ) : EReal)

/-- One sample's loss, quotient arrangement. -/
def rowR (L : Fin 64 → EReal) (n : Fin 64 → ℕ) (l : Fin 64) : EReal := ∑ c : Fin 64, termR L n l c

/-- A sample's class as an index (the label's low six bits: the label itself when it is in range). -/
def labIdx (lab : (⟨1, ![262144]⟩ : Shape).Idx → BitVec 32) (i : Fin 262144) : Fin 64 :=
  ⟨(lab (ix1 i)).toNat % 64, Nat.mod_lt _ (by norm_num)⟩

/-- The size of class c: how many samples carry the label c. -/
def cnt (lab : (⟨1, ![262144]⟩ : Shape).Idx → BitVec 32) (c : Fin 64) : ℕ :=
  (Finset.univ.filter fun i : Fin 262144 => (lab (ix1 i)).toInt = (c.val : Int)).card

/-- Sample i's logit against class c. -/
def logit (f1 : (⟨2, ![262144, 128]⟩ : Shape).Idx → EReal) (cen : (⟨2, ![64, 128]⟩ : Shape).Idx → EReal)
    (i : Fin 262144) (c : Fin 64) : EReal :=
  ∑ k : Fin 128, f1 (ix2 i k) * cen (ix2 c k)

/-- The loss, softplus arrangement. -/
def lossK (f1 : (⟨2, ![262144, 128]⟩ : Shape).Idx → EReal) (cen : (⟨2, ![64, 128]⟩ : Shape).Idx → EReal)
    (lab : (⟨1, ![262144]⟩ : Shape).Idx → BitVec 32) : EReal :=
  ∑ i : Fin 262144, rowK (logit f1 cen i) (cnt lab) (labIdx lab i)

/-- The loss, quotient arrangement. -/
def lossR (f1 : (⟨2, ![262144, 128]⟩ : Shape).Idx → EReal) (cen : (⟨2, ![64, 128]⟩ : Shape).Idx → EReal)
    (lab : (⟨1, ![262144]⟩ : Shape).Idx → BitVec 32) : EReal :=
  ∑ i : Fin 262144, rowR (logit f1 cen i) (cnt lab) (labIdx lab i)

/-- Every entry of an array is a real number. -/
def Finite {s : Shape} (x : s.Idx → EReal) : Prop := ∀ j, x j ≠ ⊤ ∧ x j ≠ ⊥

/-- Every label is a class number. -/
def InRange (lab : (⟨1, ![262144]⟩ : Shape).Idx → BitVec 32) : Prop :=
  ∀ i : Fin 262144, 0 ≤ (lab (ix1 i)).toInt ∧ (lab (ix1 i)).toInt < 64

/-- An in-range label read signed is its class index. -/
theorem labIdx_toInt {lab : (⟨1, ![262144]⟩ : Shape).Idx → BitVec 32} (h : InRange lab) (i : Fin 262144) :
    (lab (ix1 i)).toInt = ((labIdx lab i).val : Int) := by
  obtain ⟨h0, h1⟩ := h i
  show (lab (ix1 i)).toInt = (((lab (ix1 i)).toNat % 64 : ℕ) : Int)
  generalize lab (ix1 i) = b at h0 h1 ⊢
  have hb := b.isLt
  rw [BitVec.toInt_eq_toNat_cond] at h0 h1 ⊢
  split_ifs at h0 h1 ⊢ <;> omega

/-- A sample's own class is not empty. -/
theorem cnt_labIdx_pos {lab : (⟨1, ![262144]⟩ : Shape).Idx → BitVec 32} (h : InRange lab) (i : Fin 262144) :
    0 < cnt lab (labIdx lab i) :=
  Finset.card_pos.mpr ⟨i, Finset.mem_filter.mpr ⟨Finset.mem_univ i, labIdx_toInt h i⟩⟩

/-- The coercion of a finite real sum is the sum of the coercions. -/
theorem ereal_coe_sum {ι : Type*} (s : Finset ι) (f : ι → ℝ) :
    ((∑ k ∈ s, f k : ℝ) : EReal) = ∑ k ∈ s, (f k : EReal) := by
  classical
  induction s using Finset.induction_on with
  | empty => simp
  | insert _ _ h ih => rw [Finset.sum_insert h, Finset.sum_insert h, EReal.coe_add, ih]

/-- A finite sum of products of real entries is real. -/
theorem logit_finite {f1 : (⟨2, ![262144, 128]⟩ : Shape).Idx → EReal} {cen : (⟨2, ![64, 128]⟩ : Shape).Idx → EReal}
    (hf : Finite f1) (hg : Finite cen) (i : Fin 262144) (c : Fin 64) :
    logit f1 cen i c ≠ ⊤ ∧ logit f1 cen i c ≠ ⊥ := by
  have h : logit f1 cen i c = ((∑ k : Fin 128, (f1 (ix2 i k)).toReal * (cen (ix2 c k)).toReal : ℝ) : EReal) := by
    rw [ereal_coe_sum]
    refine Finset.sum_congr rfl fun k _ => ?_
    rw [EReal.coe_mul, EReal.coe_toReal (hf _).1 (hf _).2, EReal.coe_toReal (hg _).1 (hg _).2]
  rw [h]
  exact ⟨EReal.coe_ne_top _, EReal.coe_ne_bot _⟩

/-- The temperature word denotes the real 13421773 / 2^28. -/
theorem temp_eq : temp = ((13421773 / 268435456 : ℝ) : EReal) := by
  unfold temp
  simp [Ideal.ofBits, Ideal.ieee, -EReal.coe_mul]; norm_num

/-- The coercion commutes with the maximum. -/
theorem ereal_coe_max (a b : ℝ) : ((max a b : ℝ) : EReal) = max (a : EReal) (b : EReal) :=
  EReal.coe_strictMono.monotone.map_max

/-- On the reals the stable arrangement is log(1 + e^a): for a ≥ 0, a + log(1 + e^{−a}) = log(e^a (1 + e^{−a}));
    for a < 0 the maximum is 0 and −|a| = a. -/
theorem splus_real (a : ℝ) :
    max a 0 + Real.log (1 + Real.exp (-(max a (-a)))) = Real.log (1 + Real.exp a) := by
  rcases le_total 0 a with h | h
  · rw [max_eq_left h, max_eq_left (by linarith : -a ≤ a)]
    have hp : (0 : ℝ) < 1 + Real.exp (-a) := by positivity
    calc a + Real.log (1 + Real.exp (-a))
        = Real.log (Real.exp a) + Real.log (1 + Real.exp (-a)) := by rw [Real.log_exp]
      _ = Real.log (Real.exp a * (1 + Real.exp (-a))) := (Real.log_mul (Real.exp_pos a).ne' hp.ne').symm
      _ = Real.log (1 + Real.exp a) := by
          congr 1
          rw [mul_add, mul_one, ← Real.exp_add, add_neg_cancel, Real.exp_zero, add_comm]
  · rw [max_eq_right h, max_eq_right (by linarith : a ≤ -a), neg_neg, zero_add]

/-- The stable arrangement at a real argument. -/
theorem splus_coe (a : ℝ) : splus (a : EReal) = ((Real.log (1 + Real.exp a) : ℝ) : EReal) := by
  unfold splus
  rw [sub_zero]
  have h1 : max (a : EReal) 0 = ((max a 0 : ℝ) : EReal) := by rw [ereal_coe_max, EReal.coe_zero]
  have h2 : max (a : EReal) (-(a : EReal)) = ((max a (-a) : ℝ) : EReal) := by rw [ereal_coe_max, EReal.coe_neg]
  have h3 : (0 : EReal) - ((max a (-a) : ℝ) : EReal) = ((-(max a (-a)) : ℝ) : EReal) := by
    rw [← EReal.coe_zero, ← EReal.coe_sub, zero_sub]
  have hp : ¬ (1 + Real.exp (-(max a (-a))) ≤ 0) := not_le.mpr (by positivity)
  rw [h1, h2, h3, Ideal.exp_coe, Ideal.log1p, ← EReal.coe_one, ← EReal.coe_add, Ideal.log_coe, if_neg hp,
    ← EReal.coe_add, splus_real]

/-- The quotient arrangement's term on the reals: −log(e^u / (e^u + N e^v)) = log(1 + e^{(v − u) + log N}), since
    (e^u + N e^v) / e^u = 1 + N e^{v − u}. -/
theorem quot_real (xl xc N : ℝ) (hN : 0 < N) :
    -Real.log (Real.exp (xl * (1 / (13421773 / 268435456))) * (1 / (Real.exp (xl * (1 / (13421773 / 268435456))) + N * Real.exp (xc * (1 / (13421773 / 268435456))))))
      = Real.log (1 + Real.exp ((xc - xl) * (268435456 / 13421773) + Real.log N)) := by
  have hS : (1 / (13421773 / 268435456) : ℝ) = 268435456 / 13421773 := by norm_num
  rw [hS, ← Real.log_inv]
  congr 1
  have hu := Real.exp_pos (xl * (268435456 / 13421773))
  have hv := Real.exp_pos (xc * (268435456 / 13421773))
  rw [Real.exp_add, Real.exp_log hN, sub_mul, Real.exp_sub]
  field_simp

/-- One term of the quotient arrangement at real logits, as a real number. -/
theorem termR_coe (x : Fin 64 → ℝ) (n : Fin 64 → ℕ) (l c : Fin 64) (hn : 0 < n l) :
    termR (fun c => (x c : EReal)) n l c =
      (((if 0 < n c ∧ c ≠ l then
            Real.log (1 + Real.exp ((x c - x l) * (268435456 / 13421773) + Real.log (n l))) else 0)
          * (1 / (n l : ℝ)) : ℝ) : EReal) := by
  have hN : (0 : ℝ) < n l := by exact_mod_cast hn
  have hT : (13421773 / 268435456 : ℝ) ≠ 0 := by norm_num
  unfold termR
  rw [Ideal.div_coe hN.ne']
  by_cases hc : 0 < n c ∧ c ≠ l
  · have hD : 0 < Real.exp (x l * (1 / (13421773 / 268435456)))
        + (n l : ℝ) * Real.exp (x c * (1 / (13421773 / 268435456))) := by positivity
    have hq : ¬ (Real.exp (x l * (1 / (13421773 / 268435456))) * (1 / (Real.exp (x l * (1 / (13421773 / 268435456)))
        + (n l : ℝ) * Real.exp (x c * (1 / (13421773 / 268435456))))) ≤ 0) := not_le.mpr (by positivity)
    rw [if_pos hc, if_pos hc, temp_eq, Ideal.div_coe hT, Ideal.div_coe hT, ← EReal.coe_mul, ← EReal.coe_mul,
      Ideal.exp_coe, Ideal.exp_coe, ← EReal.coe_mul, ← EReal.coe_add, Ideal.div_coe hD.ne', ← EReal.coe_mul,
      Ideal.log_coe, if_neg hq, ← EReal.coe_neg, ← EReal.coe_mul, quot_real _ _ _ hN]
  · rw [if_neg hc, if_neg hc, zero_mul, zero_mul, EReal.coe_zero]

/-- THE ROW LAW: with real logits and a non-empty own class the two arrangements of a sample's loss agree. -/
theorem rowK_eq_rowR (L : Fin 64 → EReal) (n : Fin 64 → ℕ) (l : Fin 64)
    (hL : ∀ c, L c ≠ ⊤ ∧ L c ≠ ⊥) (hn : 0 < n l) : rowK L n l = rowR L n l := by
  obtain ⟨x, rfl⟩ : ∃ x : Fin 64 → ℝ, L = fun c => (x c : EReal) :=
    ⟨fun c => (L c).toReal, funext fun c => (EReal.coe_toReal (hL c).1 (hL c).2).symm⟩
  have hN : (0 : ℝ) < n l := by exact_mod_cast hn
  unfold rowK rowR
  rw [Finset.sum_congr rfl fun c _ => termR_coe x n l c hn, ← ereal_coe_sum, ← Finset.sum_mul, EReal.coe_mul, ereal_coe_sum]
  congr 1
  · refine Finset.sum_congr rfl fun c _ => ?_
    have ha : ((x c : EReal) - (x l : EReal)) * scale + logc n l
        = (((x c - x l) * (268435456 / 13421773) + Real.log (n l) : ℝ) : EReal) := by
      rw [logc, if_pos hn, Ideal.log_coe, if_neg (not_le.mpr hN), scale, ← EReal.coe_sub, ← EReal.coe_mul,
        ← EReal.coe_add]
    by_cases hc : 0 < n c ∧ c ≠ l
    · rw [if_pos hc, if_pos hc, ha, splus_coe]
    · rw [if_neg hc, if_neg hc, EReal.coe_zero]
  · rw [invc, if_pos hn, Ideal.div_coe hN.ne', one_mul]

/-- The two arrangements of the whole loss agree on finite inputs with in-range labels. -/
theorem lossK_eq_lossR {f1 : (⟨2, ![262144, 128]⟩ : Shape).Idx → EReal} {cen : (⟨2, ![64, 128]⟩ : Shape).Idx → EReal}
    {lab : (⟨1, ![262144]⟩ : Shape).Idx → BitVec 32} (hf : Finite f1) (hg : Finite cen) (hl : InRange lab) :
    lossK f1 cen lab = lossR f1 cen lab :=
  Finset.sum_congr rfl fun i _ =>
    rowK_eq_rowR _ _ _ (logit_finite hf hg i) (cnt_labIdx_pos hl i)

/-- Block b, row r ↦ sample 4096 b + r: the 64 blocks of 4096 rows are exactly the 262144 samples. -/
def blockEquiv : Fin 64 × Fin 4096 ≃ Fin 262144 where
  toFun p := ⟨4096 * p.1.val + p.2.val, by have := p.1.isLt; have := p.2.isLt; omega⟩
  invFun i := (⟨i.val / 4096, by have := i.isLt; omega⟩, ⟨i.val % 4096, by omega⟩)
  left_inv p := by
    have := p.1.isLt; have := p.2.isLt
    ext
    · show (4096 * p.1.val + p.2.val) / 4096 = p.1.val
      omega
    · show (4096 * p.1.val + p.2.val) % 4096 = p.2.val
      omega
  right_inv i := by
    ext
    show 4096 * (i.val / 4096) + i.val % 4096 = i.val
    omega

/-- Samples counted block by block: 64 blocks of 4096 rows are the 262144 samples. -/
theorem sum_blocks (F : Fin 262144 → EReal) :
    (∑ b : Fin 64, ∑ r : Fin 4096, F ⟨4096 * b.val + r.val, by have := b.isLt; have := r.isLt; omega⟩) = ∑ i : Fin 262144, F i := by
  rw [← Fintype.sum_equiv blockEquiv (fun p => F (blockEquiv p)) F (fun _ => rfl), Fintype.sum_prod_type]
  rfl

/-- A one-hot selection summed over the classes is the selected entry. -/
theorem sum_onehot (a : Fin 64 → EReal) (l : Fin 64) : (∑ c : Fin 64, if c = l then a c else 0) = a l := by
  rw [Finset.sum_ite_eq' Finset.univ l a, if_pos (Finset.mem_univ l)]

end Cert.Loss

end
-- ==== Proof.Tile.lean ====
/-
  What one grid point adds to its core's 8 × 128 accumulator block: the slab's loss in cell (0, 0), zero elsewhere.

  The body forms the 4096 × 64 logits of the slab against the packed centres (the error-compensated product: the slab
  and its rounding residue side by side against [[c, c], [residue of c, 0]]; on exact numbers both residues vanish and
  the product is the plain one), picks each row's own-class logit, log class size and reciprocal class size by a
  one-hot sum, applies the overflow-free softplus to the scaled gaps, keeps the present foreign classes, sums each row,
  weights it by the reciprocal class size, and sums the rows.
-/
import proofs.«407241_j68152541053489_3_alg».proof.Proof.Gen.KernelIdeal.Skeleton
import proofs.«407241_j68152541053489_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.Loss Idealize.ShloMosaic Idealize.ShloMosaic.ValueIdx

/-- The 8 × 128 tile a grid point adds to the accumulator, from the point's six input blocks: the slab of f1, the
    packed centres, the slab's labels, and the rows of class sizes, of their logs and of their reciprocals. -/
def addTile {F : FTy → Type} [FloatOps F] [Named F] (x0 : Vec F S4096x128 .f32) (x1 : Vec F S128x256 .bf16)
    (x2 : Vec F S4096x1 .i32) (x3 x4 x5 : Vec F S1x64 .f32) : FVec F S8x128 .f32 :=
  select k0_pay9
    (k0_pay10 (k0_pay3 x0 x1) (k0_pay4 x2) (k0_pay5 x3) (k0_pay6 x5) (k0_pay7 x0 x1 x2) (k0_pay8 x2 x4))
    k0_pay11

/-! ### Layout reads the library leaves to the caller -/

/-- A vector cast to a one-column matrix reads its entry, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads the row's one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry matrix broadcast to a matrix reads its entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A one-entry vector cast to a one-entry matrix reads its entry. -/
theorem shapeCast_1_11_apply {α : Type} (x : (⟨1, ![1]⟩ : Shape).Idx → α)
    (h : (⟨1, ![1]⟩ : Shape).ShapeCasts ⟨2, ![1, 1]⟩) (u w : Fin 1) :
    shapeCast ⟨2, ![1, 1]⟩ x h (ix2 u w) = x (ix1 (0 : Fin 1)) :=
  shapeCast_apply x h _ _ (by
    have hu : u.val = 0 := by omega
    have hw : w.val = 0 := by omega
    rw [Shape.rowMajor_val_two, Shape.rowMajor_val_one]
    show 0 = u.val * 1 + w.val
    rw [hu, hw])

/-! ### The packed product at an entry -/

theorem lhs_mm_0 (i : S4096x128.Idx) (q : dot_S4096x256_S128x256_S4096x128_1_1_0_0_n_n.contr.Idx) :
    (dot_S4096x256_S128x256_S4096x128_1_1_0_0_n_n.lhsIdx i q 0).val = (i 0).val := by
  unfold DotDims.lhsIdx
  rw [dif_neg (show ¬(0 : Fin S4096x256.rank) ∈ dot_S4096x256_S128x256_S4096x128_1_1_0_0_n_n.lhsBatch by decide), dif_pos (show (0 : Fin S4096x256.rank) ∈ dot_S4096x256_S128x256_S4096x128_1_1_0_0_n_n.lhsNonContracting by decide)]
  rfl
theorem lhs_mm_1 (i : S4096x128.Idx) (q : dot_S4096x256_S128x256_S4096x128_1_1_0_0_n_n.contr.Idx) :
    (dot_S4096x256_S128x256_S4096x128_1_1_0_0_n_n.lhsIdx i q 1).val = (q ⟨0, by decide⟩).val :=
  dot_S4096x256_S128x256_S4096x128_1_1_0_0_n_n.lhsIdx_val_of_single rfl i q
theorem rhs_mm_0 (i : S4096x128.Idx) (q : dot_S4096x256_S128x256_S4096x128_1_1_0_0_n_n.contr.Idx) :
    (dot_S4096x256_S128x256_S4096x128_1_1_0_0_n_n.rhsIdx i q 0).val = (i 1).val := by
  unfold DotDims.rhsIdx
  rw [dif_neg (show ¬(0 : Fin S128x256.rank) ∈ dot_S4096x256_S128x256_S4096x128_1_1_0_0_n_n.rhsBatch by decide), dif_pos (show (0 : Fin S128x256.rank) ∈ dot_S4096x256_S128x256_S4096x128_1_1_0_0_n_n.rhsNonContracting by decide)]
  rfl
theorem rhs_mm_1 (i : S4096x128.Idx) (q : dot_S4096x256_S128x256_S4096x128_1_1_0_0_n_n.contr.Idx) :
    (dot_S4096x256_S128x256_S4096x128_1_1_0_0_n_n.rhsIdx i q 1).val = (q ⟨0, by decide⟩).val :=
  dot_S4096x256_S128x256_S4096x128_1_1_0_0_n_n.rhsIdx_val_of_single rfl i q

/-- The product into the zero block, at (r, j): the sum over the 256 packed columns of left row r against right row j. -/
theorem matmul_apply_rj (A : FVec Ideal S4096x256 .bf16) (B : FVec Ideal S128x256 .bf16) (r : Fin 4096) (j : Fin 128) :
    matmul dot_S4096x256_S128x256_S4096x128_1_1_0_0_n_n none A B (constant (F := Ideal) S4096x128 .f32 0x00000000#32) (ix2 r j)
      = ∑ k : Fin 256, A (ix2 r k) * B (ix2 j k) := by
  show FloatOps.matmul dot_S4096x256_S128x256_S4096x128_1_1_0_0_n_n none A B (constant (F := Ideal) S4096x128 .f32 0x00000000#32) (ix2 r j) = _
  rw [Ideal.matmul_constant_zero_apply, ← Equiv.sum_comp (ValueIdx.contrEquiv1 dot_S4096x256_S128x256_S4096x128_1_1_0_0_n_n 256 rfl rfl).symm]
  refine Finset.sum_congr rfl fun k _ => ?_
  have hk := ValueIdx.contrEquiv1_symm_val dot_S4096x256_S128x256_S4096x128_1_1_0_0_n_n 256 rfl rfl k
  have el : dot_S4096x256_S128x256_S4096x128_1_1_0_0_n_n.lhsIdx (ix2 r j) ((ValueIdx.contrEquiv1 dot_S4096x256_S128x256_S4096x128_1_1_0_0_n_n 256 rfl rfl).symm k) = ix2 r k := funext fun a => Fin.ext (by
    match a with
    | ⟨0, _⟩ => exact lhs_mm_0 _ _
    | ⟨1, _⟩ => exact (lhs_mm_1 _ _).trans hk)
  have er : dot_S4096x256_S128x256_S4096x128_1_1_0_0_n_n.rhsIdx (ix2 r j) ((ValueIdx.contrEquiv1 dot_S4096x256_S128x256_S4096x128_1_1_0_0_n_n 256 rfl rfl).symm k) = ix2 j k := funext fun a => Fin.ext (by
    match a with
    | ⟨0, _⟩ => exact rhs_mm_0 _ _
    | ⟨1, _⟩ => exact (rhs_mm_1 _ _).trans hk)
  rw [el, er]

/-- A sum over 256 columns is the sum over the first 128 plus the sum over the last 128. -/
theorem sum_fin256 (f : Fin 256 → EReal) :
    ∑ k : Fin 256, f k = ∑ k : Fin 128, f ⟨k.val, by omega⟩ + ∑ k : Fin 128, f ⟨k.val + 128, by omega⟩ := by
  refine (Fin.sum_univ_add (M := EReal) (a := 128) (b := 128) f).trans ?_
  refine congrArg₂ (· + ·) rfl (Finset.sum_congr rfl fun k _ => congrArg f (Fin.ext (Nat.add_comm _ _)))

/-- Two blocks side by side: a column in the left half reads the left block. -/
theorem concat_left {α : Type} (a b : S4096x128.Idx → α) (h : Shape.Concatenates [S4096x128, S4096x128] S4096x256 1)
    (r : Fin 4096) (k : Fin 128) :
    concatenate S4096x256 1 [⟨S4096x128, a⟩, ⟨S4096x128, b⟩] h (ix2 r (⟨k.val, by omega⟩ : Fin 256)) = a (ix2 r k) :=
  concatenate_pair_apply_left 1 a b h _ rfl (ix2 r k) (fun ax => by
    match ax with
    | ⟨0, _⟩ => rfl
    | ⟨1, _⟩ => rfl)

/-- Two blocks side by side: a column in the right half reads the right block, 128 columns back. -/
theorem concat_right {α : Type} (a b : S4096x128.Idx → α) (h : Shape.Concatenates [S4096x128, S4096x128] S4096x256 1)
    (r : Fin 4096) (k : Fin 128) :
    concatenate S4096x256 1 [⟨S4096x128, a⟩, ⟨S4096x128, b⟩] h (ix2 r (⟨k.val + 128, by omega⟩ : Fin 256)) = b (ix2 r k) :=
  concatenate_pair_apply_right 1 a b h _ rfl rfl (ix2 r k) (fun ax hne => by
    match ax with
    | ⟨0, _⟩ => rfl
    | ⟨1, _⟩ => exact absurd rfl hne) rfl

/-- The packed product at (r, j): the slab row against the first 128 columns of right row j, plus the slab's rounding
    residue (the slab less itself) against its last 128 columns. -/
theorem packed_row (x0 : FVec Ideal S4096x128 .f32) (x1 : FVec Ideal S128x256 .bf16)
    (hb : FTy.bits .bf16 < FTy.bits .f32) (hcat : Shape.Concatenates [S4096x128, S4096x128] S4096x256 1)
    (hsc : S128x256.ShapeCasts S128x256) (r : Fin 4096) (j : Fin 128) :
    matmul dot_S4096x256_S128x256_S4096x128_1_1_0_0_n_n none
        (concatenate S4096x256 1 [⟨S4096x128, truncf .bf16 x0 hb⟩, ⟨S4096x128, truncf .bf16 (subf x0 x0) hb⟩] hcat)
        (shapeCast S128x256 x1 hsc) (constant (F := Ideal) S4096x128 .f32 0x00000000#32) (ix2 r j)
      = ∑ k : Fin 128, x0 (ix2 r k) * x1 (ix2 j (⟨k.val, by omega⟩ : Fin 256))
        + ∑ k : Fin 128, (x0 (ix2 r k) - x0 (ix2 r k)) * x1 (ix2 j (⟨k.val + 128, by omega⟩ : Fin 256)) := by
  rw [shapeCast_self]
  refine (matmul_apply_rj _ _ r j).trans ?_
  refine (sum_fin256 _).trans ?_
  refine congrArg₂ (· + ·) (Finset.sum_congr rfl fun k _ => ?_) (Finset.sum_congr rfl fun k _ => ?_)
  · exact congrArg (· * x1 (ix2 j (⟨k.val, by omega⟩ : Fin 256))) (concat_left _ _ hcat r k)
  · exact congrArg (· * x1 (ix2 j (⟨k.val + 128, by omega⟩ : Fin 256))) (concat_right _ _ hcat r k)

/-- THE LOGITS. Against the packed centres [[g, g], [0, 0]] a real slab's packed product, its two column halves added,
    is the plain product with g: the residue of a real number is zero, and the lower rows are zero. -/
theorem logits_apply (x0 : Vec Ideal S4096x128 .f32) (x1 : Vec Ideal S128x256 .bf16) (g : Fin 64 → Fin 128 → EReal)
    (hx0 : ∀ (r : Fin 4096) (k : Fin 128), x0 (ix2 r k) ≠ ⊤ ∧ x0 (ix2 r k) ≠ ⊥)
    (hx1 : ∀ (c : Fin 64) (k : Fin 128),
      x1 (ix2 (⟨c.val, by omega⟩ : Fin 128) (⟨k.val, by omega⟩ : Fin 256)) = g c k
      ∧ x1 (ix2 (⟨c.val, by omega⟩ : Fin 128) (⟨k.val + 128, by omega⟩ : Fin 256)) = g c k
      ∧ x1 (ix2 (⟨c.val + 64, by omega⟩ : Fin 128) (⟨k.val, by omega⟩ : Fin 256)) = 0
      ∧ x1 (ix2 (⟨c.val + 64, by omega⟩ : Fin 128) (⟨k.val + 128, by omega⟩ : Fin 256)) = 0)
    (r : Fin 4096) (c : Fin 64) :
    k0_pay3 (F := Ideal) x0 x1 (ix2 r c) = ∑ k : Fin 128, x0 (ix2 r k) * g c k := by
  unfold k0_pay3
  refine (addf_apply _ _ _).trans ?_
  refine (congrArg₂ (· + ·)
    (slice2_axis1_apply 0 _ _ r c (⟨c.val, by omega⟩ : Fin 128) (Nat.zero_add _).symm)
    (slice2_axis1_apply 64 _ _ r c (⟨c.val + 64, by omega⟩ : Fin 128) (Nat.add_comm _ _))).trans ?_
  refine (congrArg₂ (· + ·) (packed_row x0 x1 _ _ _ r _) (packed_row x0 x1 _ _ _ r _)).trans ?_
  have e1 : ∑ k : Fin 128, x0 (ix2 r k) * x1 (ix2 (⟨c.val, by omega⟩ : Fin 128) (⟨k.val, by omega⟩ : Fin 256))
      = ∑ k : Fin 128, x0 (ix2 r k) * g c k := Finset.sum_congr rfl fun k _ => by rw [(hx1 c k).1]
  have e2 : ∀ j : Fin 128, ∑ k : Fin 128, (x0 (ix2 r k) - x0 (ix2 r k)) * x1 (ix2 j (⟨k.val + 128, by omega⟩ : Fin 256)) = 0 :=
    fun j => Finset.sum_eq_zero fun k _ => by rw [EReal.sub_self (hx0 r k).1 (hx0 r k).2, zero_mul]
  have e3 : ∑ k : Fin 128, x0 (ix2 r k) * x1 (ix2 (⟨c.val + 64, by omega⟩ : Fin 128) (⟨k.val, by omega⟩ : Fin 256)) = 0 :=
    Finset.sum_eq_zero fun k _ => by rw [(hx1 c k).2.2.1, mul_zero]
  rw [e1, e2, e2, e3, add_zero, add_zero, add_zero]

/-! ### The one-hot mask of the labels -/

/-- A label word whose signed value is a class number is that number's word. -/
theorem label_word (w : BitVec 32) (l : Fin 64) (h : w.toInt = (l.val : Int)) : w = BitVec.ofNat 32 l.val := by
  rw [← BitVec.ofInt_natCast, ← h, BitVec.ofInt_toInt]

/-- Class numbers have distinct words. -/
theorem class_word_inj (c l : Fin 64) : BitVec.ofNat 32 c.val = BitVec.ofNat 32 l.val ↔ c = l := by
  constructor
  · intro h
    have e := congrArg BitVec.toNat h
    rw [BitVec.toNat_ofNat, BitVec.toNat_ofNat, Nat.mod_eq_of_lt (by have := c.isLt; omega),
      Nat.mod_eq_of_lt (by have := l.isLt; omega)] at e
    exact Fin.ext e
  · rintro rfl; rfl

theorem onehot_core (x2 : IVec S4096x1 32) (hsc : S4096x1.ShapeCasts S4096x1) (hi : S4096x64.Iotas .tc 32 [1])
    (hbc : S4096x1.Broadcasts S4096x64) (l : Fin 64) (r : Fin 4096) (c : Fin 64)
    (h : (x2 (ix2 r (0 : Fin 1))).toInt = (l.val : Int)) :
    cmpi .eq (iota .tc S4096x64 32 [1] hi) (broadcastTo S4096x64 (shapeCast S4096x1 x2 hsc) hbc) (ix2 r c)
      = if c = l then 1#1 else 0#1 := by
  show IntOp.cmpi .eq (iota .tc S4096x64 32 [1] hi (ix2 r c)) (broadcastTo S4096x64 (shapeCast S4096x1 x2 hsc) hbc (ix2 r c)) = _
  rw [iota_single_apply, broadcastTo_a1_ab_apply, shapeCast_self, label_word _ l h]
  show BitVec.ofBool (BitVec.ofNat 32 c.val == BitVec.ofNat 32 l.val) = _
  by_cases hc : c = l
  · subst hc; rw [if_pos rfl, beq_self_eq_true]; rfl
  · rw [if_neg hc, beq_eq_false_iff_ne.2 (fun e => hc ((class_word_inj c l).1 e))]; rfl

/-- THE ONE-HOT MASK: set at (r, c) exactly when c is row r's class. -/
theorem onehot_apply (x2 : Vec Ideal S4096x1 .i32) (l : Fin 4096 → Fin 64)
    (hx2 : ∀ r : Fin 4096, (x2 (ix2 r (0 : Fin 1))).toInt = ((l r).val : Int)) (r : Fin 4096) (c : Fin 64) :
    k0_pay4 (F := Ideal) x2 (ix2 r c) = if c = l r then 1#1 else 0#1 := by
  unfold k0_pay4
  exact onehot_core x2 _ _ _ (l r) r c (hx2 r)

/-! ### Lane sums -/

/-- A lane sum kept as a column: at row r, the sum of the row's 64 entries. -/
theorem rowsum_apply (src : FVec Ideal S4096x64 .f32) (hred : S4096x64.Reduces [1] S4096) (hφ : FKind.Formats .f32)
    (hacc : (0x00000000#32 : BitVec FTy.f32.bits) = FKind.add.neutral .f32 hφ) (hsc : S4096.ShapeCasts S4096x1)
    (r : Fin 4096) (u : Fin 1) :
    shapeCast S4096x1 (multiReduction (F := Ideal) .add [1] S4096 src 0x00000000#32 hred hφ hacc) hsc (ix2 r u)
      = ∑ c : Fin 64, src (ix2 r c) := by
  refine (shapeCast_a_a1_apply _ hsc r u).trans ?_
  refine (Ideal.multiReduction_add_single src _ hred hφ hacc (ix1 r)).trans ?_
  refine Finset.sum_congr rfl fun k _ => congrArg src ?_
  funext a
  apply Fin.ext
  rw [Shape.Reduces.lift_val]
  match a with
  | ⟨0, _⟩ => rfl
  | ⟨1, _⟩ => rfl

/-- The sum down a 4096 × 1 column. -/
theorem colsum_apply (src : FVec Ideal S4096x1 .f32) (hred : S4096x1.Reduces [0] S1) (hφ : FKind.Formats .f32)
    (hacc : (0x00000000#32 : BitVec FTy.f32.bits) = FKind.add.neutral .f32 hφ) (u : Fin 1) :
    multiReduction (F := Ideal) .add [0] S1 src 0x00000000#32 hred hφ hacc (ix1 u) = ∑ r : Fin 4096, src (ix2 r (0 : Fin 1)) := by
  refine (Ideal.multiReduction_add_single src _ hred hφ hacc (ix1 u)).trans ?_
  refine Finset.sum_congr rfl fun k _ => congrArg src ?_
  funext a
  apply Fin.ext
  rw [Shape.Reduces.lift_val]
  have hu : u.val = 0 := by omega
  match a with
  | ⟨0, _⟩ => rfl
  | ⟨1, _⟩ => exact hu

/-- A one-hot selection summed along a row is the selected entry. -/
theorem onehot_rowsum (oh : IVec S4096x64 1) (a : FVec Ideal S4096x64 .f32) (l : Fin 64) (r : Fin 4096) (u : Fin 1)
    (hoh : ∀ c : Fin 64, oh (ix2 r c) = if c = l then 1#1 else 0#1)
    (hred : S4096x64.Reduces [1] S4096) (hφ : FKind.Formats .f32)
    (hacc : (0x00000000#32 : BitVec FTy.f32.bits) = FKind.add.neutral .f32 hφ) (hsc : S4096.ShapeCasts S4096x1) :
    shapeCast S4096x1 (multiReduction (F := Ideal) .add [1] S4096
        (select oh a (broadcast S4096x64 (Scalar.ofBits (F := Ideal) .f32 0x00000000#32))) 0x00000000#32 hred hφ hacc) hsc (ix2 r u)
      = a (ix2 r l) := by
  refine (rowsum_apply _ hred hφ hacc hsc r u).trans ?_
  refine (Finset.sum_congr rfl fun c _ => ?_).trans (sum_onehot (fun c => a (ix2 r c)) l)
  show Scalar.select (oh (ix2 r c)) (a (ix2 r c)) (Ideal.ofBits .f32 0x00000000#32) = _
  rw [hoh c, Ideal.ofBits_zero_f32]
  by_cases hc : c = l
  · rw [if_pos hc, if_pos hc]; rfl
  · rw [if_neg hc, if_neg hc]; rfl

/-! ### One entry's term -/

/-- The named factor on a logit gap is the exact reciprocal of the temperature. -/
theorem inv_temp_eq :
    Named.named (F := Ideal) Cert.KernelIdeal.κ "inv_temp" (φ := .f32) 0x41A00000#32 = scale :=
  IdealRules.named_const.ideal_named_scalar _ _ _ _ rfl

/-- "Ordered and not equal" of a number with itself is false. -/
theorem cmp_one_self (d : EReal) : Ideal.cmp .one d d = 0#1 := by
  show BitVec.ofBool (decide (d ≠ d)) = 0#1
  rw [decide_eq_false (not_not.2 rfl)]; rfl

/-- A class size exceeds zero as a number exactly when it does as a count. -/
theorem cmp_ogt_nat (n : ℕ) : Ideal.cmp .ogt ((n : ℝ) : EReal) 0 = if 0 < n then 1#1 else 0#1 := by
  show BitVec.ofBool (decide ((0 : EReal) < ((n : ℝ) : EReal))) = _
  by_cases h : 0 < n
  · rw [if_pos h, decide_eq_true (EReal.coe_pos.2 (Nat.cast_pos.2 h))]; rfl
  · have h0 : n = 0 := by omega
    subst h0
    rw [if_neg h, decide_eq_false (by simp)]; rfl

/-- One entry of the masked term array: the stable softplus of the scaled gap where the class is present and foreign,
    zero elsewhere. (The guard against a not-a-number argument never fires on the extended reals.) -/
theorem entry_select (nc : ℕ) (v : EReal) (hv : v = ((nc : ℝ) : EReal)) (oh : BitVec 1) (c l : Fin 64)
    (hoh : oh = if c = l then 1#1 else 0#1) (X : EReal) :
    Scalar.select (IntOp.andi (Ideal.cmp .ogt v (Ideal.ofBits .f32 0x00000000#32)) (IntOp.xori oh 1#1))
      (Scalar.select (Ideal.cmp .one (X - Ideal.ofBits .f32 0x00000000#32) (X - Ideal.ofBits .f32 0x00000000#32))
        (X + Ideal.ofBits .f32 0x00000000#32)
        (max X (Ideal.ofBits .f32 0x00000000#32)
          + Ideal.log1p (Ideal.exp (Ideal.ofBits .f32 0x00000000#32
              - max (X - Ideal.ofBits .f32 0x00000000#32) (-(X - Ideal.ofBits .f32 0x00000000#32))))))
      (Ideal.ofBits .f32 0x00000000#32)
    = if 0 < nc ∧ c ≠ l then splus X else 0 := by
  rw [Ideal.ofBits_zero_f32, cmp_one_self, select_zero, hv, cmp_ogt_nat, hoh]
  unfold splus
  by_cases hn : 0 < nc
  · by_cases hc : c = l
    · rw [if_pos hn, if_pos hc, show IntOp.andi 1#1 (IntOp.xori 1#1 1#1) = 0#1 by decide, select_zero,
        if_neg (fun h => h.2 hc)]
    · rw [if_pos hn, if_neg hc, show IntOp.andi 1#1 (IntOp.xori 0#1 1#1) = 1#1 by decide, select_one,
        if_pos ⟨hn, hc⟩]
  · rw [if_neg hn, show IntOp.andi 0#1 (IntOp.xori (if c = l then 1#1 else 0#1) 1#1) = 0#1 from BitVec.zero_and,
      select_zero, if_neg (fun h => hn h.1)]

/-! ### The row payloads at an entry -/

/-- The class sizes laid along every row. -/
theorem sizes_apply (x3 : Vec Ideal S1x64 .f32) (n : Fin 64 → ℕ)
    (hx3 : ∀ c : Fin 64, x3 (ix2 (0 : Fin 1) c) = ((n c : ℝ) : EReal)) (r : Fin 4096) (c : Fin 64) :
    k0_pay5 (F := Ideal) x3 (ix2 r c) = ((n c : ℝ) : EReal) := by
  unfold k0_pay5
  refine (broadcastTo_1b_ab_apply _ _ r c).trans ?_
  refine (congrFun (shapeCast_self _ _) _).trans ?_
  exact (congrFun (shapeCast_self _ _) _).trans (hx3 c)

/-- The reciprocal class sizes laid along every row. -/
theorem invs_apply (x5 : Vec Ideal S1x64 .f32) (n : Fin 64 → ℕ)
    (hx5 : ∀ c : Fin 64, x5 (ix2 (0 : Fin 1) c) = invc n c) (r : Fin 4096) (c : Fin 64) :
    k0_pay6 (F := Ideal) x5 (ix2 r c) = invc n c := by
  unfold k0_pay6
  refine (broadcastTo_1b_ab_apply _ _ r c).trans ?_
  refine (congrFun (shapeCast_self _ _) _).trans ?_
  exact (congrFun (shapeCast_self _ _) _).trans (hx5 c)

/-- The log class sizes, kept in each row's own class only. -/
theorem ownlog_apply (x2 : Vec Ideal S4096x1 .i32) (x4 : Vec Ideal S1x64 .f32) (n : Fin 64 → ℕ) (l : Fin 4096 → Fin 64)
    (hx2 : ∀ r : Fin 4096, (x2 (ix2 r (0 : Fin 1))).toInt = ((l r).val : Int))
    (hx4 : ∀ c : Fin 64, x4 (ix2 (0 : Fin 1) c) = logc n c) (r : Fin 4096) (c : Fin 64) :
    k0_pay8 (F := Ideal) x2 x4 (ix2 r c) = if c = l r then logc n c else 0 := by
  unfold k0_pay8
  refine (select_apply _ _ _ _).trans ?_
  refine (congrArg₂ (fun m v => Scalar.select m v (Ideal.ofBits .f32 0x00000000#32)) (onehot_apply x2 l hx2 r c)
    ((broadcastTo_1b_ab_apply _ _ r c).trans ((congrFun (shapeCast_self _ _) _).trans
      ((congrFun (shapeCast_self _ _) _).trans (hx4 c))))).trans ?_
  rw [Ideal.ofBits_zero_f32]
  by_cases hc : c = l r
  · rw [if_pos hc, if_pos hc]; rfl
  · rw [if_neg hc, if_neg hc]; rfl

/-- Each row's own-class logit. -/
theorem ownlogit_apply (x0 : Vec Ideal S4096x128 .f32) (x1 : Vec Ideal S128x256 .bf16) (x2 : Vec Ideal S4096x1 .i32)
    (L : Fin 4096 → Fin 64 → EReal) (l : Fin 4096 → Fin 64)
    (hL : ∀ r c, k0_pay3 (F := Ideal) x0 x1 (ix2 r c) = L r c)
    (hx2 : ∀ r : Fin 4096, (x2 (ix2 r (0 : Fin 1))).toInt = ((l r).val : Int)) (r : Fin 4096) (u : Fin 1) :
    k0_pay7 (F := Ideal) x0 x1 x2 (ix2 r u) = L r (l r) := by
  unfold k0_pay7
  exact (onehot_rowsum (k0_pay4 (F := Ideal) x2) (k0_pay3 (F := Ideal) x0 x1) (l r) r u (onehot_apply x2 l hx2 r)
    _ _ _ _).trans (hL r (l r))

/-! ### The slab's loss -/

/-- THE SLAB'S LOSS, broadcast over the tile: from logits L, the one-hot mask of the classes l, the class sizes n and
    their reciprocals along the rows, each row's own logit and its own log class size, every cell of the tile holds the
    sum over the rows of the row loss. -/
theorem slab_apply (v14 : FVec Ideal S4096x64 .f32) (v19 : IVec S4096x64 1) (v23 v31 : FVec Ideal S4096x64 .f32)
    (v35 : FVec Ideal S4096x1 .f32) (v37 : FVec Ideal S4096x64 .f32)
    (L : Fin 4096 → Fin 64 → EReal) (n : Fin 64 → ℕ) (l : Fin 4096 → Fin 64)
    (h14 : ∀ r c, v14 (ix2 r c) = L r c)
    (h19 : ∀ r c, v19 (ix2 r c) = if c = l r then 1#1 else 0#1)
    (h23 : ∀ r c, v23 (ix2 r c) = ((n c : ℝ) : EReal))
    (h31 : ∀ r c, v31 (ix2 r c) = invc n c)
    (h35 : ∀ r, v35 (ix2 r (0 : Fin 1)) = L r (l r))
    (h37 : ∀ r c, v37 (ix2 r c) = if c = l r then logc n c else 0)
    (a : Fin 8) (b : Fin 128) :
    k0_pay10 (F := Ideal) v14 v19 v23 v31 v35 v37 (ix2 a b) = ∑ r : Fin 4096, rowK (L r) n (l r) := by
  unfold k0_pay10
  refine (broadcastTo_11_ab_apply _ _ a b).trans ?_
  refine (congrFun (shapeCast_self _ _) _).trans ?_
  refine (shapeCast_1_11_apply _ _ 0 0).trans ?_
  refine (colsum_apply _ _ _ _ 0).trans ?_
  refine Finset.sum_congr rfl fun r _ => ?_
  refine (mulf_apply _ _ _).trans ?_
  unfold rowK
  refine congrArg₂ (· * ·) ?_ ?_
  · refine (rowsum_apply _ _ _ _ _ r 0).trans (Finset.sum_congr rfl fun c _ => ?_)
    refine (entry_select (n c) _ (h23 r c) _ c (l r) (h19 r c) _).trans ?_
    refine if_congr Iff.rfl (congrArg splus ?_) rfl
    refine (addf_apply _ _ _).trans ?_
    refine congrArg₂ (· + ·) ?_ ?_
    · refine (mulf_apply _ _ _).trans ?_
      refine congrArg₂ (· * ·) ?_ inv_temp_eq
      refine (subf_apply _ _ _).trans ?_
      refine congrArg₂ (· - ·) (h14 r c) ?_
      exact (broadcastTo_a1_ab_apply _ _ r c).trans (h35 r)
    · refine (broadcastTo_a1_ab_apply _ _ r c).trans ?_
      refine (rowsum_apply _ _ _ _ _ r 0).trans ?_
      exact (Finset.sum_congr rfl fun c' _ => h37 r c').trans (sum_onehot (logc n) (l r))
  · exact (onehot_rowsum v19 v31 (l r) r 0 (h19 r) _ _ _ _).trans (h31 r (l r))

/-! ### The tile -/

/-- A small coordinate's word equals the zero word exactly when the coordinate is zero. -/
theorem word_eq_zero (k : ℕ) (hk : k < 4294967296) :
    IntOp.cmpi .eq (BitVec.ofNat 32 k) 0#32 = if k = 0 then 1#1 else 0#1 := by
  show BitVec.ofBool (BitVec.ofNat 32 k == 0#32) = _
  by_cases h : k = 0
  · subst h; rw [if_pos rfl]; rfl
  · rw [if_neg h, beq_eq_false_iff_ne.2 (fun e => h (by
      have e' := congrArg BitVec.toNat e
      rw [BitVec.toNat_ofNat, Nat.mod_eq_of_lt hk] at e'
      exact e'))]; rfl

/-- The mask of the tile's corner cell. -/
theorem corner_apply (a : Fin 8) (b : Fin 128) :
    k0_pay9 (ix2 a b) = if a.val = 0 ∧ b.val = 0 then 1#1 else 0#1 := by
  unfold k0_pay9
  show IntOp.andi (IntOp.cmpi .eq (iota .tc S8x128 32 [0] _ (ix2 a b)) 0#32)
      (IntOp.cmpi .eq (iota .tc S8x128 32 [1] _ (ix2 a b)) 0#32) = _
  rw [iota_single_apply, iota_single_apply]
  show IntOp.andi (IntOp.cmpi .eq (BitVec.ofNat 32 a.val) 0#32) (IntOp.cmpi .eq (BitVec.ofNat 32 b.val) 0#32) = _
  rw [word_eq_zero a.val (by have := a.isLt; omega), word_eq_zero b.val (by have := b.isLt; omega)]
  by_cases ha : a.val = 0
  · by_cases hb : b.val = 0
    · rw [if_pos ha, if_pos hb, if_pos ⟨ha, hb⟩]; decide
    · rw [if_pos ha, if_neg hb, if_neg (fun h => hb h.2)]; decide
  · rw [if_neg ha, if_neg (fun h : a.val = 0 ∧ b.val = 0 => ha h.1)]; exact BitVec.zero_and

/-- THE TILE AT AN ENTRY. With a real slab x0; the packed centres x1 = [[g, g], [0, 0]] over real centres g; labels
    x2 that are the classes l; and the three rows the class sizes n, their logs and their reciprocals: cell (0, 0)
    holds the sum over the slab's rows of the row loss, every other cell zero. -/
theorem addTile_apply (x0 : Vec Ideal S4096x128 .f32) (x1 : Vec Ideal S128x256 .bf16)
    (x2 : Vec Ideal S4096x1 .i32) (x3 x4 x5 : Vec Ideal S1x64 .f32)
    (g : Fin 64 → Fin 128 → EReal) (n : Fin 64 → ℕ) (l : Fin 4096 → Fin 64)
    (hx0 : ∀ (r : Fin 4096) (k : Fin 128), x0 (ix2 r k) ≠ ⊤ ∧ x0 (ix2 r k) ≠ ⊥)
    (hg : ∀ c k, g c k ≠ ⊤ ∧ g c k ≠ ⊥)
    (hx1 : ∀ (c : Fin 64) (k : Fin 128),
      x1 (ix2 (⟨c.val, by omega⟩ : Fin 128) (⟨k.val, by omega⟩ : Fin 256)) = g c k
      ∧ x1 (ix2 (⟨c.val, by omega⟩ : Fin 128) (⟨k.val + 128, by omega⟩ : Fin 256)) = g c k
      ∧ x1 (ix2 (⟨c.val + 64, by omega⟩ : Fin 128) (⟨k.val, by omega⟩ : Fin 256)) = 0
      ∧ x1 (ix2 (⟨c.val + 64, by omega⟩ : Fin 128) (⟨k.val + 128, by omega⟩ : Fin 256)) = 0)
    (hx2 : ∀ r : Fin 4096, (x2 (ix2 r (0 : Fin 1))).toInt = ((l r).val : Int))
    (hx3 : ∀ c : Fin 64, x3 (ix2 (0 : Fin 1) c) = ((n c : ℝ) : EReal))
    (hx4 : ∀ c : Fin 64, x4 (ix2 (0 : Fin 1) c) = logc n c)
    (hx5 : ∀ c : Fin 64, x5 (ix2 (0 : Fin 1) c) = invc n c)
    (a : Fin 8) (b : Fin 128) :
    addTile (F := Ideal) x0 x1 x2 x3 x4 x5 (ix2 a b)
      = if a.val = 0 ∧ b.val = 0 then
          ∑ r : Fin 4096, rowK (fun c => ∑ k : Fin 128, x0 (ix2 r k) * g c k) n (l r)
        else 0 := by
  unfold addTile
  refine (select_apply _ _ _ _).trans ?_
  refine (congrArg₂ (fun m v => Scalar.select m v (k0_pay11 (F := Ideal) (ix2 a b))) (corner_apply a b)
    (slab_apply _ _ _ _ _ _ (fun r c => ∑ k : Fin 128, x0 (ix2 r k) * g c k) n l
      (logits_apply x0 x1 g hx0 hx1) (onehot_apply x2 l hx2) (sizes_apply x3 n hx3) (invs_apply x5 n hx5)
      (fun r => ownlogit_apply x0 x1 x2 _ l (logits_apply x0 x1 g hx0 hx1) hx2 r 0)
      (ownlog_apply x2 x4 n l hx2 hx4) a b)).trans ?_
  by_cases h : a.val = 0 ∧ b.val = 0
  · rw [if_pos h, if_pos h]; rfl
  · rw [if_neg h, if_neg h]
    show Ideal.ofBits .f32 0x00000000#32 = 0
    exact Ideal.ofBits_zero_f32

end Cert.KernelIdeal.Tile

end
-- ==== Proof.Accum.lean ====
/-
  The accumulation over the grid and the program's result.

  The grid is 2 × 32: core-row p owns block p of the 16 × 128 output and visits it at 32 consecutive points. At the
  first of them the block is reset to zero and the point's tile added; at the others the tile is added to what the point
  before left. A tile is zero off cell (0, 0), so after its 32 points block p holds the sum of their cell values in
  (0, 0) and zeros elsewhere; the block is written back when the block index changes. The host then sums the whole
  16 × 128 array: the sum over all 64 points of their cell values.
-/
import proofs.«407241_j68152541053489_3_alg».proof.Proof.Gen.KernelIdeal.Frame
import proofs.«407241_j68152541053489_3_alg».proof.Proof.Blocks
import proofs.«407241_j68152541053489_3_alg».proof.Proof.Tile

noncomputable section

open scoped BigOperators

namespace Cert.KernelIdeal.Accum

open Cert.KernelIdeal Cert.KernelIdeal.Gen Cert.KernelIdeal.Blocks Cert.KernelIdeal.Tile
open Idealize.ShloMosaic Idealize.ShloMosaic.TcCoe Idealize.SL.Sem Idealize.ShloMosaic.ValueIdx

/-! ## What each case of the body leaves in the accumulator block -/

section Pieces
variable {F : FTy → Type} [FloatOps F] [Named F]

theorem hz : (![0, 0] : Fin 2 → Nat) = fun _ => 0 := funext fun a => by fin_cases a <;> rfl

/-- Away from the first point of a core-row the body reads the block, adds the point's tile and stores the sum. -/
theorem out_B (c : Dev nD) (i : grid0.Coords) (arg2 : Memref sig .tc .vmem S4096x128 .f32) (harg2 : arg2.IsWhole) (arg3 : Memref sig .tc .vmem S128x256 .bf16) (harg3 : arg3.IsWhole) (arg4 : Memref sig .tc .vmem S4096x1 .i32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S8x128 .f32) (harg8 : arg8.IsWhole) (hc0 : ¬cond0_0 i)
    (x0 : Vec F S4096x128 .f32) (x1 : Vec F S128x256 .bf16) (x2 : Vec F S4096x1 .i32) (x3 : Vec F S1x64 .f32) (x4 : Vec F S1x64 .f32) (x5 : Vec F S1x64 .f32) (xo6 : Vec F S8x128 .f32) :
    out0_B_6 c i arg2 harg2 arg3 harg3 arg4 harg4 arg5 harg5 arg6 harg6 arg7 harg7 arg8 harg8 hc0 x0 x1 x2 x3 x4 x5 xo6
      = addf xo6 (addTile x0 x1 x2 x3 x4 x5) := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz]
  unfold k0_pay1 addTile
  simp only [View.readAt_eq_ld, harg2.read_unread, harg3.read_unread, harg4.read_unread, harg5.read_unread, harg6.read_unread, harg7.read_unread, harg8.read_unread,
    View.ld_unit_zero (S := S8x128) hz, View.ld_unit_zero (S := S4096x128) hz, View.ld_unit_zero (S := S128x256) hz, View.ld_unit_zero (S := S4096x1) hz, View.ld_unit_zero (S := S1x64) hz, shapeCast_self]

/-- At the first point of a core-row the body stores the zero block, reads it back, adds the point's tile and stores
    the sum: the later store covers the earlier. -/
theorem out_A (c : Dev nD) (i : grid0.Coords) (arg2 : Memref sig .tc .vmem S4096x128 .f32) (harg2 : arg2.IsWhole) (arg3 : Memref sig .tc .vmem S128x256 .bf16) (harg3 : arg3.IsWhole) (arg4 : Memref sig .tc .vmem S4096x1 .i32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S8x128 .f32) (harg8 : arg8.IsWhole) (hc0 : cond0_0 i)
    (x0 : Vec F S4096x128 .f32) (x1 : Vec F S128x256 .bf16) (x2 : Vec F S4096x1 .i32) (x3 : Vec F S1x64 .f32) (x4 : Vec F S1x64 .f32) (x5 : Vec F S1x64 .f32) :
    out0_A_6 c i arg2 harg2 arg3 harg3 arg4 harg4 arg5 harg5 arg6 harg6 arg7 harg7 arg8 harg8 hc0 x0 x1 x2 x3 x4 x5
      = addf (k0_pay2 (F := F)) (addTile x0 x1 x2 x3 x4 x5) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S8x128) hz, View.readCov_unit_zero (S := S8x128) _ hz]
  unfold k0_pay1 addTile
  simp only [View.readAt_eq_ld, harg2.read_unread, harg3.read_unread, harg4.read_unread, harg5.read_unread, harg6.read_unread, harg7.read_unread,
    View.ld_unit_zero (S := S8x128) hz, View.ld_unit_zero (S := S4096x128) hz, View.ld_unit_zero (S := S128x256) hz, View.ld_unit_zero (S := S4096x1) hz, View.ld_unit_zero (S := S1x64) hz, shapeCast_self]

end Pieces

variable (m : (ℓ : Loc nD τ sig) → Buf (Elt Ideal) ℓ) (ρ : Dev nD → PrngReg)

/-! ## The accumulator block point by point -/

/-- The accumulator block after a point that is the first of its core-row, at an entry: zero plus the point's tile. -/
theorem outsAt_reset (c : Dev nD) (t : Fin cfg0.N) (h0 : t.val % 32 = 0) (a : Fin 8) (b : Fin 128) :
    outsAt0 m c t.val t.isLt (ix2 a b)
      = 0 + addTile (F := Ideal) (blk0 m c t) (blk1 m c t) (blk2 m c t) (blk3 m c t) (blk4 m c t) (blk5 m c t) (ix2 a b) := by
  rw [outsAt0_A m c t h0]
  refine (congrFun (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (blk0 m c t) (blk1 m c t) (blk2 m c t) (blk3 m c t) (blk4 m c t) (blk5 m c t)) (ix2 a b)).trans ?_
  show Ideal.ofBits .f32 0x00000000#32 + _ = _
  rw [Ideal.ofBits_zero_f32]

/-- The accumulator block after any other point, at an entry: what the point before left plus the point's tile. -/
theorem outsAt_step (c : Dev nD) (t : Fin cfg0.N) (h0 : ¬t.val % 32 = 0) (a : Fin 8) (b : Fin 128) :
    outsAt0 m c t.val t.isLt (ix2 a b)
      = outsAt0 m c (t.val - 1) (Nat.lt_of_le_of_lt (Nat.sub_le _ _) t.isLt) (ix2 a b)
        + addTile (F := Ideal) (blk0 m c t) (blk1 m c t) (blk2 m c t) (blk3 m c t) (blk4 m c t) (blk5 m c t) (ix2 a b) := by
  rw [outsAt0_B m c t h0]
  exact congrFun (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (blk0 m c t) (blk1 m c t) (blk2 m c t) (blk3 m c t) (blk4 m c t) (blk5 m c t)
    (outsAt0 m c (t.val - 1) (Nat.lt_of_le_of_lt (Nat.sub_le _ _) t.isLt))) (ix2 a b)

/-- The per-point cell values continued by zero past the grid, so that sums over runs of points need no bound. -/
def Tn (T : Dev nD → Fin cfg0.N → EReal) (c : Dev nD) (k : ℕ) : EReal := if h : k < cfg0.N then T c ⟨k, h⟩ else 0

theorem Tn_val (T : Dev nD → Fin cfg0.N → EReal) (c : Dev nD) (t : Fin cfg0.N) : Tn T c t.val = T c t := dif_pos t.isLt

/-- THE INVARIANT. After point n the accumulator block holds, in cell (0, 0), the sum of the cell values of the points
    of n's core-row up to n, and zero elsewhere. -/
theorem outsAt_eq (T : Dev nD → Fin cfg0.N → EReal)
    (hT : ∀ (c : Dev nD) (t : Fin cfg0.N) (a : Fin 8) (b : Fin 128),
      addTile (F := Ideal) (blk0 m c t) (blk1 m c t) (blk2 m c t) (blk3 m c t) (blk4 m c t) (blk5 m c t) (ix2 a b)
        = if a.val = 0 ∧ b.val = 0 then T c t else 0)
    (c : Dev nD) (n : ℕ) : ∀ (h : n < cfg0.N) (a : Fin 8) (b : Fin 128),
      outsAt0 m c n h (ix2 a b)
        = if a.val = 0 ∧ b.val = 0 then ∑ s ∈ Finset.range (n % 32 + 1), Tn T c (n - n % 32 + s) else 0 := by
  have reset : ∀ (n : ℕ) (h : n < cfg0.N), n % 32 = 0 → ∀ (a : Fin 8) (b : Fin 128), outsAt0 m c n h (ix2 a b)
      = if a.val = 0 ∧ b.val = 0 then ∑ s ∈ Finset.range (n % 32 + 1), Tn T c (n - n % 32 + s) else 0 := by
    intro n h h0 a b
    refine (outsAt_reset m c ⟨n, h⟩ h0 a b).trans ?_
    rw [hT c ⟨n, h⟩ a b, zero_add, h0, Finset.sum_range_one, Nat.sub_zero, Nat.add_zero]
    exact if_congr Iff.rfl (Tn_val T c ⟨n, h⟩).symm rfl
  induction n with
  | zero => exact fun h a b => reset 0 h rfl a b
  | succ k ih =>
    intro h a b
    by_cases h0 : (k + 1) % 32 = 0
    · exact reset (k + 1) h h0 a b
    · refine (outsAt_step m c ⟨k + 1, h⟩ h0 a b).trans ?_
      rw [hT c ⟨k + 1, h⟩ a b]
      show outsAt0 m c k _ (ix2 a b) + _ = _
      rw [ih (Nat.lt_of_succ_lt h) a b]
      have e1 : (k + 1) % 32 = k % 32 + 1 := by omega
      have e2 : k + 1 - (k % 32 + 1) = k - k % 32 := by omega
      have e3 : k - k % 32 + (k % 32 + 1) = k + 1 := by omega
      rw [e1, e2, Finset.sum_range_succ _ (k % 32 + 1), e3]
      by_cases hab : a.val = 0 ∧ b.val = 0
      · rw [if_pos hab, if_pos hab, if_pos hab]
        exact congrArg _ (Tn_val T c ⟨k + 1, h⟩).symm
      · rw [if_neg hab, if_neg hab, if_neg hab, add_zero]

/-! ## The 16 × 128 array after the region -/

/-- The sum of the cell values over the 32 points of core-row p. -/
def rowSum (T : Dev nD → Fin cfg0.N → EReal) (c : Dev nD) (p : ℕ) : EReal := ∑ s ∈ Finset.range 32, Tn T c (32 * p + s)

/-- What the array ends holding: rows 0 and 8 carry, in lane 0, the sums of core-rows 0 and 1; every other entry is zero. -/
def arrG (T : Dev nD → Fin cfg0.N → EReal) (c : Dev nD) : S16x128.Idx → EReal :=
  fun i => if (i 0).val % 8 = 0 ∧ (i 1).val = 0 then rowSum T c ((i 0).val / 8) else 0

/-- The output window's block index at a point: its core-row on the rows, 0 on the lanes — decided over the grid. -/
theorem idx6 : ∀ t : Fin cfg0.N, win0_6.index t (0 : Fin 2) = t.val / 32 ∧ win0_6.index t (1 : Fin 2) = 0 :=
  (by decide +kernel : ∀ t : Fin grid0.N, win0_6.index t (0 : Fin 2) = t.val / 32 ∧ win0_6.index t (1 : Fin 2) = 0)

/-- What a point that writes the block back writes is its block of that array: the point is the last of its core-row,
    so the invariant's sum runs over the whole core-row. -/
theorem flushed_eq (T : Dev nD → Fin cfg0.N → EReal)
    (hT : ∀ (c : Dev nD) (t : Fin cfg0.N) (a : Fin 8) (b : Fin 128),
      addTile (F := Ideal) (blk0 m c t) (blk1 m c t) (blk2 m c t) (blk3 m c t) (blk4 m c t) (blk5 m c t) (ix2 a b)
        = if a.val = 0 ∧ b.val = 0 then T c t else 0)
    (c : Dev nD) (t : Fin cfg0.N) (hf : (cfg0.win 6).flush t = true) :
    (dats m 0 c).flushed 6 t = ((cfg0.win 6).blk t).view.read (Elt Ideal) (arrG T c) := by
  have h31 : t.val % 32 = 31 := (flush0_6 t).mp hf
  obtain ⟨e0, e1⟩ := idx6 t
  show (cfg0.win 6).cut (grid0.coords t) ((dats m 0 c).after 6 t) = _
  rw [after0_6]
  funext y
  obtain ⟨a, b, rfl⟩ : ∃ (a : Fin 8) (b : Fin 128), y = ix2 a b := ⟨y 0, y 1, eq_ix2 y⟩
  refine (outsAt_eq m T hT c t.val t.isLt a b).trans ?_
  rw [View.read_apply]
  show _ = arrG T c (((cfg0.win 6).blk t).view.emb (ix2 a b))
  have c0 : ((((cfg0.win 6).blk t).view.emb (ix2 a b)) 0).val = win0_6.index t (0 : Fin 2) * 8 + 1 * a.val := rfl
  have c1 : ((((cfg0.win 6).blk t).view.emb (ix2 a b)) 1).val = win0_6.index t (1 : Fin 2) * 128 + 1 * b.val := rfl
  unfold arrG
  rw [c0, c1, e0, e1]
  have ha := a.isLt
  have hb := b.isLt
  have k1 : (t.val / 32 * 8 + 1 * a.val) % 8 = 0 ↔ a.val = 0 := by omega
  have k2 : 0 * 128 + 1 * b.val = 0 ↔ b.val = 0 := by omega
  by_cases hab : a.val = 0 ∧ b.val = 0
  · rw [if_pos hab, if_pos ⟨k1.mpr hab.1, k2.mpr hab.2⟩, h31]
    unfold rowSum
    rw [show (t.val / 32 * 8 + 1 * a.val) / 8 = t.val / 32 by omega, show t.val - 31 = 32 * (t.val / 32) by omega]
  · rw [if_neg hab, if_neg (fun h => hab ⟨k1.mp h.1, k2.mp h.2⟩)]

/-- An entry of the array lies in a point's block when each coordinate lies in the block's range on its axis. -/
theorem mem_blk6 (t : Fin cfg0.N) (i : S16x128.Idx) :
    i ∈ ((cfg0.win 6).blk t).view.set ↔ ∀ a : Fin 2, win0_6.index t a * S8x128.size a ≤ (i a).val
      ∧ (i a).val < win0_6.index t a * S8x128.size a + S8x128.size a := by
  show i ∈ ((View.whole main_v29).slice (win0_6.rect t)).set ↔ _
  rw [View.set_slice_whole, Rect.mem_set_unit]
  exact Iff.rfl

/-- Every row r of the array is in the block that the last point of core-row r / 8 writes back. -/
theorem cover6 (i : S16x128.Idx) : ∃ t : Fin cfg0.N, (cfg0.win 6).flush t = true ∧ i ∈ ((cfg0.win 6).blk t).view.set := by
  have hi0 : (i 0).val < 16 := (i 0).isLt
  have hi1 : (i 1).val < 128 := (i 1).isLt
  have hN : cfg0.N = 64 := N_0
  obtain ⟨t, ht⟩ : ∃ t : Fin cfg0.N, t.val = 32 * ((i 0).val / 8) + 31 := ⟨⟨32 * ((i 0).val / 8) + 31, by omega⟩, rfl⟩
  obtain ⟨e0, e1⟩ := idx6 t
  refine ⟨t, (flush0_6 t).mpr (by omega), ?_⟩
  rw [mem_blk6]
  intro a
  match a with
  | ⟨0, _⟩ =>
    show win0_6.index t (0 : Fin 2) * 8 ≤ (i 0).val ∧ (i 0).val < win0_6.index t (0 : Fin 2) * 8 + 8
    rw [e0]; omega
  | ⟨1, _⟩ =>
    show win0_6.index t (1 : Fin 2) * 128 ≤ (i 1).val ∧ (i 1).val < win0_6.index t (1 : Fin 2) * 128 + 128
    rw [e1]; omega

/-- So the array ends at arrG: the two write-backs cover it. -/
theorem final (T : Dev nD → Fin cfg0.N → EReal)
    (hT : ∀ (c : Dev nD) (t : Fin cfg0.N) (a : Fin 8) (b : Fin 128),
      addTile (F := Ideal) (blk0 m c t) (blk1 m c t) (blk2 m c t) (blk3 m c t) (blk4 m c t) (blk5 m c t) (ix2 a b)
        = if a.val = 0 ∧ b.val = 0 then T c t else 0)
    (c : Dev nD) : (dats m 0 c).arrAt 6 cfg0.N = arrG T c :=
  (dats m 0 c).arrAt_eq_of_cover 6 (arrG T c) (flushed_eq m T hT c) cover6

/-! ## The host's sum of the array -/

/-- The 64 cell values, summed as a run of naturals, are the sum over the grid's points. -/
theorem sum_Tn (T : Dev nD → Fin cfg0.N → EReal) (c : Dev nD) : ∑ k ∈ Finset.range 64, Tn T c k = ∑ t : Fin cfg0.N, T c t := by
  have hN : cfg0.N = 64 := N_0
  rw [← hN, Finset.sum_range]
  exact Finset.sum_congr rfl fun t _ => Tn_val T c t

/-- The array's entries sum to the sum of all 64 cell values: only entries (0, 0) and (8, 0) are not zero, and they
    hold the two core-rows' sums. -/
theorem sum_arrG (T : Dev nD → Fin cfg0.N → EReal) (c : Dev nD) : ∑ i : S16x128.Idx, arrG T c i = ∑ t : Fin cfg0.N, T c t := by
  rw [sum_idx2]
  have inner : ∀ a : Fin 16, ∑ b : Fin 128, arrG T c (ix2 a b) = if a.val % 8 = 0 then rowSum T c (a.val / 8) else 0 := by
    intro a
    rw [Fintype.sum_eq_single (0 : Fin 128)]
    · show (if a.val % 8 = 0 ∧ (0 : Fin 128).val = 0 then rowSum T c (a.val / 8) else 0) = _
      exact if_congr ⟨fun h => h.1, fun h => ⟨h, rfl⟩⟩ rfl rfl
    · intro b hb
      show (if a.val % 8 = 0 ∧ b.val = 0 then rowSum T c (a.val / 8) else 0) = 0
      rw [if_neg (fun h => hb (Fin.ext h.2))]
  rw [Finset.sum_congr rfl fun a _ => inner a,
    Fintype.sum_eq_add (0 : Fin 16) (8 : Fin 16) (by decide) (fun x hx => by
      have hx0 : x.val ≠ 0 := fun h => hx.1 (Fin.ext h)
      have hx8 : x.val ≠ 8 := fun h => hx.2 (Fin.ext h)
      have := x.isLt
      rw [if_neg (by omega)])]
  show rowSum T c 0 + rowSum T c 1 = _
  unfold rowSum
  rw [← sum_Tn, show (64 : ℕ) = 32 + 32 from rfl, Finset.sum_range_add]
  rfl

/-- The scalar the program ends with: the host's sum of the array after the region, from zero. -/
theorem tail_eq (T : Dev nD → Fin cfg0.N → EReal)
    (hT : ∀ (c : Dev nD) (t : Fin cfg0.N) (a : Fin 8) (b : Fin 128),
      addTile (F := Ideal) (blk0 m c t) (blk1 m c t) (blk2 m c t) (blk3 m c t) (blk4 m c t) (blk5 m c t) (ix2 a b)
        = if a.val = 0 ∧ b.val = 0 then T c t else 0) (c : Dev nD) :
    Pipeline.afterTail₀ cfgs (dats m) 0 (V0 m) [hostOps1] c main_v30 = fun _ => ∑ t : Fin cfg0.N, T c t := by
  unfold Pipeline.afterTail₀
  show StableHlo.after hostOps1 _ (Proc.devRef .tc main_v30) = _
  after_results
  rw [(Pipeline.withArrays_arr spec0 launch0.win.arr_inj c (V0 m c) (fun w => (dats m 0 c).arrAt w cfg0.N) 6).trans
    (final m T hT c)]
  funext j
  show Ideal.hostReduceAdd reducesTo_S16x128_S_d0_1 (arrG T c) (Ideal.ofBits .f32 0x00000000#32) j = _
  rw [Ideal.hostReduceAdd_total _ (fun b => b.elim0), Ideal.ofBits_zero_f32, zero_add, sum_arrG]

/-! ## The run -/

/-- THE RUN'S VALUE. If at every grid point the tile is T c t in cell (0, 0) and zero elsewhere, every weakly fair
    execution ends with the scalar result at the sum of the T c t over the 64 points, the arguments unchanged. -/
theorem run_value (T : Dev nD → Fin cfg0.N → EReal)
    (hT : ∀ (c : Dev nD) (t : Fin cfg0.N) (a : Fin 8) (b : Fin 128),
      addTile (F := Ideal) (blk0 m c t) (blk1 m c t) (blk2 m c t) (blk3 m c t) (blk4 m c t) (blk5 m c t) (ix2 a b)
        = if a.val = 0 ∧ b.val = 0 then T c t else 0) :
    θ_run defs (onTc (τ := τ) (main (F := Ideal))) ⟨m, fun _ => 0, ρ⟩ (fun r => ∀ c : Dev nD,
      r.2.mem ((c.tc : Thread nD τ).loc main_v30) = (fun _ => ∑ t : Fin cfg0.N, T c t)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v30 (Pipeline.mem_restRefs_of main_v30 (by decide) (by decide))).trans (tail_eq m T hT c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Accum

end
-- ==== Proof.Prefix.lean ====
/-
  What the pallas_call's windows hold, read at an entry, in terms of the program's arguments.

  Before the call the host forms the labels as a column and the packed centres [[c_hi, c_hi], [c_lo, 0]] with c_hi the
  centres and c_lo = c − c_hi their rounding residue, which on exact numbers is 0. Grid point t reads rows
  4096 t … 4096 t + 4095 of f1 and of the label column, and the whole of the packed centres.
-/
import proofs.«407241_j68152541053489_3_alg».proof.Proof.Gen.KernelIdeal.Frame.Runs
import proofs.«407241_j68152541053489_3_alg».proof.Proof.Blocks
import proofs.«407241_j68152541053489_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Prefix

open Cert.KernelIdeal Cert.KernelIdeal.Gen Cert.KernelIdeal.Blocks Cert.Loss
open Idealize.ShloMosaic Idealize.ShloMosaic.TcCoe Idealize.SL.Sem Idealize.ShloMosaic.ValueIdx

variable (m : (ℓ : Loc nD τ sig) → Buf (Elt Ideal) ℓ)

/-! ## The block indices, decided once over the grid

Windows 0 and 2 read block (t, 0) at the t-th grid point; window 1 reads block (0, 0) at every point. -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-! ## The slab of f1 -/

/-- Row r of point t's slab of f1 is sample 4096 t + r. -/
theorem blk0_apply (c : Dev nD) (t : Fin cfg0.N) (r : Fin 4096) (k : Fin 128) :
    blk0 m c t (ix2 r k) = argF1 m c (ix2 (rowOf t r) k) := by
  show V m c main_arg0 (((cfg0.win 0).blk t).view.emb (ix2 r k)) = _
  rw [V_main_arg0]
  show m ((c : Thread nD τ).loc main_arg0) (((cfg0.win 0).blk t).view.emb (ix2 r k))
    = m ((c : Thread nD τ).loc main_arg0) (ix2 (rowOf t r) k)
  obtain ⟨e0, e1⟩ := idx0 t
  refine congrArg _ ?_
  -- a block's coordinate is its index times its size plus the coordinate inside the block
  funext a; apply Fin.ext
  match a with
  | ⟨0, _⟩ => show win0_0.index t (0 : Fin 2) * 4096 + 1 * r.val = 4096 * t.val + r.val; omega
  | ⟨1, _⟩ => show win0_0.index t (1 : Fin 2) * 128 + 1 * k.val = k.val; omega

/-! ## The label column -/

/-- The label column the call finds is the labels reshaped from [262144] to [262144, 1]. -/
theorem V_main_v20 (c : Dev nD) :
    (V m c main_v20 : S262144x1.Idx → BitVec 32) = shapeCast S262144x1 (argLab m c) shapeCasts_S262144_S262144x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- Row r of point t's label column is sample 4096 t + r's label. -/
theorem blk2_apply (c : Dev nD) (t : Fin cfg0.N) (r : Fin 4096) :
    blk2 m c t (ix2 r (0 : Fin 1)) = argLab m c (ix1 (rowOf t r)) := by
  show V m c main_v20 (((cfg0.win 2).blk t).view.emb (ix2 r (0 : Fin 1))) = _
  rw [V_main_v20]
  obtain ⟨e0, e1⟩ := idx2 t
  have hi : ((cfg0.win 2).blk t).view.emb (ix2 r (0 : Fin 1)) = (ix2 (rowOf t r) (0 : Fin 1) : S262144x1.Idx) := by
    funext a; apply Fin.ext
    match a with
    | ⟨0, _⟩ => show win0_2.index t (0 : Fin 2) * 4096 + 1 * r.val = 4096 * t.val + r.val; omega
    | ⟨1, _⟩ => show win0_2.index t (1 : Fin 2) * 1 + 1 * 0 = 0; omega
  rw [hi]
  -- entry (i, 0) of the column and entry i of the labels have the same row-major position, i · 1 + 0 = i
  refine shapeCast_apply _ _ _ _ ?_
  rw [Shape.rowMajor_val_one, Shape.rowMajor_val_two]
  show (rowOf t r).val = (rowOf t r).val * 1 + 0
  omega

/-! ## The packed centres -/

/-- The centres and their rounding residue packed as [[c, c], [c − c, 0]], the format changes written as the host
    writes them (on exact numbers each is the identity). -/
def packed (cen : FVec Ideal S64x128 .f32) : FVec Ideal S128x256 .bf16 :=
  concatenate S128x256 0
    [⟨S64x256, concatenate S64x256 1
        [⟨S64x128, (truncf .bf16 cen bitsLt_bf16_f32 : FVec Ideal S64x128 .bf16)⟩,
         ⟨S64x128, (truncf .bf16 cen bitsLt_bf16_f32 : FVec Ideal S64x128 .bf16)⟩]
        concatenates_S64x128_S64x128_S64x256_d1⟩,
     ⟨S64x256, concatenate S64x256 1
        [⟨S64x128, (truncf .bf16 (subf cen (extf .f32 (truncf .bf16 cen bitsLt_bf16_f32 : FVec Ideal S64x128 .bf16)
            bitsLt_bf16_f32)) bitsLt_bf16_f32 : FVec Ideal S64x128 .bf16)⟩,
         ⟨S64x128, (broadcastInDim S64x128 ![] bcast_S_S64x128 (constant (F := Ideal) S_ .bf16 0x0000#16)
            : FVec Ideal S64x128 .bf16)⟩]
        concatenates_S64x128_S64x128_S64x256_d1⟩]
    concatenates_S64x256_S64x256_S128x256_d0

/-- The packed centres the call finds are the host's packing of the centres. -/
theorem V_main_v28 (c : Dev nD) : (V m c main_v28 : S128x256.Idx → EReal) = packed (argCen m c) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

section Cat
variable {α : Type}

/-- Two 64-row pieces stacked: a row below 64 reads the upper piece. -/
theorem stack_upper (x₁ x₂ : S64x256.Idx → α) (r : Fin 64) (q : Fin 256) :
    concatenate S128x256 0 [⟨S64x256, x₁⟩, ⟨S64x256, x₂⟩] concatenates_S64x256_S64x256_S128x256_d0
      (ix2 (⟨r.val, by omega⟩ : Fin 128) q) = x₁ (ix2 r q) := by
  refine concatenate_pair_apply_left (t := S128x256) (s₁ := S64x256) (s₂ := S64x256) 0 x₁ x₂
    concatenates_S64x256_S64x256_S128x256_d0 (ix2 (⟨r.val, by omega⟩ : Fin 128) q) rfl (ix2 r q) ?_
  intro b
  match b with
  | ⟨0, _⟩ => rfl
  | ⟨1, _⟩ => rfl

/-- Two 64-row pieces stacked: row 64 + r reads the lower piece at row r. -/
theorem stack_lower (x₁ x₂ : S64x256.Idx → α) (r : Fin 64) (q : Fin 256) :
    concatenate S128x256 0 [⟨S64x256, x₁⟩, ⟨S64x256, x₂⟩] concatenates_S64x256_S64x256_S128x256_d0
      (ix2 (⟨r.val + 64, by omega⟩ : Fin 128) q) = x₂ (ix2 r q) := by
  refine concatenate_pair_apply_right (t := S128x256) (s₁ := S64x256) (s₂ := S64x256) 0 x₁ x₂
    concatenates_S64x256_S64x256_S128x256_d0 (ix2 (⟨r.val + 64, by omega⟩ : Fin 128) q) rfl rfl (ix2 r q) ?_ ?_
  · intro b
    match b with
    | ⟨0, _⟩ => exact fun h => absurd rfl h
    | ⟨1, _⟩ => exact fun _ => rfl
  · show r.val + 64 = r.val + 64
    rfl

/-- Two 128-column pieces side by side: a column below 128 reads the left piece. -/
theorem beside_left (x₁ x₂ : S64x128.Idx → α) (r : Fin 64) (k : Fin 128) :
    concatenate S64x256 1 [⟨S64x128, x₁⟩, ⟨S64x128, x₂⟩] concatenates_S64x128_S64x128_S64x256_d1
      (ix2 r (⟨k.val, by omega⟩ : Fin 256)) = x₁ (ix2 r k) := by
  refine concatenate_pair_apply_left (t := S64x256) (s₁ := S64x128) (s₂ := S64x128) 1 x₁ x₂
    concatenates_S64x128_S64x128_S64x256_d1 (ix2 r (⟨k.val, by omega⟩ : Fin 256)) rfl (ix2 r k) ?_
  intro b
  match b with
  | ⟨0, _⟩ => rfl
  | ⟨1, _⟩ => rfl

/-- Two 128-column pieces side by side: column 128 + k reads the right piece at column k. -/
theorem beside_right (x₁ x₂ : S64x128.Idx → α) (r : Fin 64) (k : Fin 128) :
    concatenate S64x256 1 [⟨S64x128, x₁⟩, ⟨S64x128, x₂⟩] concatenates_S64x128_S64x128_S64x256_d1
      (ix2 r (⟨k.val + 128, by omega⟩ : Fin 256)) = x₂ (ix2 r k) := by
  refine concatenate_pair_apply_right (t := S64x256) (s₁ := S64x128) (s₂ := S64x128) 1 x₁ x₂
    concatenates_S64x128_S64x128_S64x256_d1 (ix2 r (⟨k.val + 128, by omega⟩ : Fin 256)) rfl rfl (ix2 r k) ?_ ?_
  · intro b
    match b with
    | ⟨0, _⟩ => exact fun _ => rfl
    | ⟨1, _⟩ => exact fun h => absurd rfl h
  · show k.val + 128 = k.val + 128
    rfl

end Cat

/-- The packing read at its four quadrants, over real centres: c, c, c − c = 0 (a real minus itself), and the zero
    constant. -/
theorem packed_apply (cen : FVec Ideal S64x128 .f32) (hg : Finite cen) (cc : Fin 64) (k : Fin 128) :
    packed cen (ix2 (⟨cc.val, by omega⟩ : Fin 128) (⟨k.val, by omega⟩ : Fin 256)) = cen (ix2 cc k)
    ∧ packed cen (ix2 (⟨cc.val, by omega⟩ : Fin 128) (⟨k.val + 128, by omega⟩ : Fin 256)) = cen (ix2 cc k)
    ∧ packed cen (ix2 (⟨cc.val + 64, by omega⟩ : Fin 128) (⟨k.val, by omega⟩ : Fin 256)) = 0
    ∧ packed cen (ix2 (⟨cc.val + 64, by omega⟩ : Fin 128) (⟨k.val + 128, by omega⟩ : Fin 256)) = 0 := by
  unfold packed
  refine ⟨?_, ?_, ?_, ?_⟩
  · rw [stack_upper, beside_left]; rfl
  · rw [stack_upper, beside_right]; rfl
  · rw [stack_lower, beside_left]
    show cen (ix2 cc k) - cen (ix2 cc k) = 0
    exact EReal.sub_self (hg _).1 (hg _).2
  · rw [stack_lower, beside_right]
    show Ideal.ofBits .bf16 0x0000#16 = 0
    simp [Ideal.ofBits, Ideal.ieee]

/-- The packed centres over real centres: rows 0–63 hold the centres twice, rows 64–127 hold zeros. -/
theorem blk1_apply (c : Dev nD) (hg : Finite (argCen m c)) (t : Fin cfg0.N) (cc : Fin 64) (k : Fin 128) :
    blk1 m c t (ix2 (⟨cc.val, by omega⟩ : Fin 128) (⟨k.val, by omega⟩ : Fin 256)) = argCen m c (ix2 cc k)
    ∧ blk1 m c t (ix2 (⟨cc.val, by omega⟩ : Fin 128) (⟨k.val + 128, by omega⟩ : Fin 256)) = argCen m c (ix2 cc k)
    ∧ blk1 m c t (ix2 (⟨cc.val + 64, by omega⟩ : Fin 128) (⟨k.val, by omega⟩ : Fin 256)) = 0
    ∧ blk1 m c t (ix2 (⟨cc.val + 64, by omega⟩ : Fin 128) (⟨k.val + 128, by omega⟩ : Fin 256)) = 0 := by
  -- the one block of window 1 is the whole packed array, at every point
  have hb : ∀ (p : Fin 128) (q : Fin 256), blk1 m c t (ix2 p q) = packed (argCen m c) (ix2 p q) := by
    intro p q
    show V m c main_v28 (((cfg0.win 1).blk t).view.emb (ix2 p q)) = _
    rw [V_main_v28]
    obtain ⟨e0, e1⟩ := idx1 t
    refine congrArg _ ?_
    funext a; apply Fin.ext
    match a with
    | ⟨0, _⟩ => show win0_1.index t (0 : Fin 2) * 128 + 1 * p.val = p.val; omega
    | ⟨1, _⟩ => show win0_1.index t (1 : Fin 2) * 256 + 1 * q.val = q.val; omega
  rw [hb, hb, hb, hb]
  exact packed_apply (argCen m c) hg cc k

end Cert.KernelIdeal.Prefix

end
-- ==== Proof.LibSegNorm.lean ====
/-
  SEGMENT SUMS UNDER A SYMMETRIC NORMALISATION — a general lemma file (no program is named here).

  The setting. A table `L` of `N` rows and `C` columns, a list of `E` edges given by two columns of 32-bit row
  numbers (sources `is`, destinations `id`, each an `[E, 1]` array), and one factor `dinv n` per row. The
  AGGREGATION of per-edge rows `u : [E, C]` is the scatter-add into a zero `[N, C]` table: row `n` of the
  result is the sum of the rows `u e` over the edges `e` whose destination is `n`.

  The law (`agg_law`). Scaling each edge's row by BOTH endpoint factors and then aggregating,
      ∑_{e → n} L[src e] · (dinv[src e] · dinv[dst e]),
  is the same as aggregating the rows of the PRE-SCALED table `L[m] · dinv[m]` and scaling row `n` of the result
  once by `dinv[n]`,
      (∑_{e → n} L[src e] · dinv[src e]) · dinv[n],
  over the extended reals, for every `L`, as soon as each factor `dinv n` is a NONNEGATIVE REAL. Only that is
  needed: a nonnegative real factor distributes over every sum of extended reals, whatever its terms (even
  `⊤ + ⊥`), and multiplication of extended reals is associative and commutative everywhere.

  What the file states, in order:
    * the dimension numbers of the two gathers (a row of an `[N, C]` table, an entry of an `[N]` vector, each at
      an `[E, 1]` column of starts) and of the two scatters (a row into `[N, C]`, an entry into `[N]`), each an
      `abbrev` taking its well-formedness proof as an argument;
    * each gather read at an index: the operand at the start, read signed and clamped into `[0, N − 1]`
      (`rowGather_apply`, `vecGather_apply`);
    * each scatter's landing condition: edge `e`'s update lands on row `n` exactly when its start, read signed
      and NOT clamped, is `n` (`rowScatter_resultIdx`, `vecScatter_resultIdx`);
    * a nonnegative real factor through a finite sum (`sum_mul_coe`);
    * the law (`agg_law`);
    * the degree count: scatter-adding ones into zeros gives a natural number (`degree_real`).
-/
import Idealize.ShloMosaic.Lib.ValueIdx
import Mathlib.Data.EReal.Operations

noncomputable section

open scoped BigOperators

open Idealize.ShloMosaic

namespace SegNorm

open Idealize.ShloMosaic.ValueIdx

/-! ## The dimension numbers -/

/-- A ROW of an `[N, C]` table at each of `E` starts: the table's axis 0 is collapsed and start-indexed, its
    axis 1 is the result's offset axis, the index vector lies on axis 1 of the `[E, 1]` starts. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- An ENTRY of an `[N]` vector at each of `E` starts. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `E` rows of width `C` into an `[N, C]` table, row `e` at the start `e` names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `E` scalars into an `[N]` vector, scalar `e` at the start `e` names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The start of an edge -/

/-- The index `[e, 0]` of edge `e`'s start in an `[E, 1]` column. -/
abbrev eIdx {E : Nat} (e : Fin E) : (⟨2, ![E, 1]⟩ : Shape).Idx :=
  fun a => match a with | ⟨0, _⟩ => e | ⟨1, _⟩ => ⟨0, Nat.one_pos⟩

/-- Edge `e`'s start read signed and clamped into `[0, N − 1]`: the row a gather reads. -/
def clampRow {N E w : Nat} (hN : 0 < N) (idx : IVec ⟨2, ![E, 1]⟩ w) (e : Fin E) : Fin N :=
  ⟨min (idx (eIdx e)).toInt.toNat (N - 1), by omega⟩

theorem clampRow_val {N E w : Nat} (hN : 0 < N) (idx : IVec ⟨2, ![E, 1]⟩ w) (e : Fin E) :
    (clampRow hN idx e).val = min (idx (eIdx e)).toInt.toNat (N - 1) := rfl

/-- A start that is a row number is its own clamp. -/
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  rw [clampRow_val, h, Int.toNat_natCast]
  have := n.isLt
  omega

/-! ## The gathers read at an index -/

section Gather
variable {α : Type}

/-- The row gather's operand index on axis 0: the clamped start. -/
theorem rowGather_idx0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 0).val
      = min (idx (eIdx ⟨(y 0).val, idx2_lt0 y⟩)).toInt.toNat (N - 1) := by
  show (rowGatherDims N E C wf).start y idx 0 + (rowGatherDims N E C wf).batchCoord y 0
    + (rowGatherDims N E C wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx y ⟨List.idxOf (0 : Fin 2) (rowGatherDims N E C wf).startIndexMap,
      List.idxOf_lt_length_iff.2 (List.mem_singleton.mpr rfl)⟩ = eIdx ⟨(y 0).val, idx2_lt0 y⟩ := by
    funext b; refine Fin.ext ?_
    match b with
    | ⟨0, _⟩ => rfl
    | ⟨1, _⟩ => rfl
  rw [hsi]
  rfl

/-- The row gather's operand index on axis 1: the result's column. -/
theorem rowGather_idx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 1).val = (y 1).val := by
  show (rowGatherDims N E C wf).start y idx 1 + (rowGatherDims N E C wf).batchCoord y 1
    + (rowGatherDims N E C wf).offCoord y 1 = _
  rw [GatherDims.batchCoord_eq_zero _ _ _ List.not_mem_nil]
  have hns : (1 : Fin 2) ∉ (rowGatherDims N E C wf).startIndexMap := fun h =>
    absurd (congrArg Fin.val (List.mem_singleton.mp h)) Nat.one_ne_zero
  unfold GatherDims.start
  rw [dif_neg hns]
  simp only [Nat.add_zero, Nat.zero_add]
  rfl

/-- THE ROW GATHER READ AT `(e, c)`: the table at row `clamp (start e)`, column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 (clampRow hN idx ⟨(y 0).val, idx2_lt0 y⟩) ⟨(y 1).val, idx2_lt1 y⟩) := by
  unfold Host.gather
  congr 1
  funext a
  refine Fin.ext ?_
  match a with
  | ⟨0, _⟩ => exact rowGather_idx0 wf idx y
  | ⟨1, _⟩ => exact rowGather_idx1 wf idx y

/-- THE VECTOR GATHER READ AT `e`: the vector at entry `clamp (start e)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = eIdx ⟨(y 0).val, (y 0).isLt⟩ := by
    funext b; refine Fin.ext ?_
    match b with
    | ⟨0, _⟩ => rfl
    | ⟨1, _⟩ => rfl
  rw [hsi]
  rfl

end Gather

/-! ## Where a scatter's update lands -/

section Scatter

/-- The row scatter's start on axis 0: edge `e`'s start, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (eIdx ⟨(j 0).val, idx2_lt0 j⟩)).toInt := by
  unfold ScatterDims.start
  rw [dif_pos (show (0 : Fin 2) ∈ (rowScatterDims N E C wf).scatterDimsToOperandDims from
    List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = eIdx ⟨(j 0).val, idx2_lt0 j⟩ := by
    funext b; refine Fin.ext ?_
    match b with
    | ⟨0, _⟩ => rfl
    | ⟨1, _⟩ => rfl
  rw [hsi]

/-- The row scatter's start on axis 1: none. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg (fun h => absurd (congrArg Fin.val (List.mem_singleton.mp h)) Nat.one_ne_zero)]

/-- The row scatter's window coordinate on axis 0 (the inserted axis): none. -/
theorem rowScatter_window0 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := rfl

/-- The row scatter's window coordinate on axis 1: the update's column. -/
theorem rowScatter_window1 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := rfl

/-- WHERE A ROW UPDATE LANDS: update `(e, c)` lands on `(n, c')` exactly when edge `e`'s start, read signed
    and not clamped, is `n`, and `c = c'`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (eIdx ⟨(j 0).val, idx2_lt0 j⟩)).toInt = ((i 0).val : Int) ∧ (j 1).val = (i 1).val := by
  unfold ScatterDims.resultIdx?
  constructor
  · intro h
    split at h
    · rename_i hc
      have hi := Option.some.inj h
      have key : ∀ a, ((rowScatterDims N E C wf).start j idx a
          + ((rowScatterDims N E C wf).window j a : Int)).toNat = (i a).val :=
        fun a => congrArg Fin.val (congrFun hi a)
      have h0 := key 0
      have c0 := (hc 0).1
      have h1 := key 1
      rw [rowScatter_start0, rowScatter_window0] at h0 c0
      rw [rowScatter_start1, rowScatter_window1] at h1
      refine ⟨by omega, by omega⟩
    · exact absurd h (by simp)
  · rintro ⟨h0, h1⟩
    have hi0 := idx2_lt0 i
    have hj1 := idx2_lt1 j
    have hc : ∀ a, 0 ≤ (rowScatterDims N E C wf).start j idx a + ((rowScatterDims N E C wf).window j a : Int)
        ∧ (rowScatterDims N E C wf).start j idx a + ((rowScatterDims N E C wf).window j a : Int)
          < (((⟨2, ![N, C]⟩ : Shape).size a : Nat) : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [rowScatter_start0, rowScatter_window0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [rowScatter_start1, rowScatter_window1]; omega
    rw [dif_pos hc]
    congr 1
    funext a; refine Fin.ext ?_
    match a with
    | ⟨0, _⟩ =>
      show ((rowScatterDims N E C wf).start j idx 0 + ((rowScatterDims N E C wf).window j 0 : Int)).toNat = (i 0).val
      rw [rowScatter_start0, rowScatter_window0, h0]; omega
    | ⟨1, _⟩ =>
      show ((rowScatterDims N E C wf).start j idx 1 + ((rowScatterDims N E C wf).window j 1 : Int)).toNat = (i 1).val
      rw [rowScatter_start1, rowScatter_window1, ← h1]; omega

/-- The vector scatter's start on its one axis: edge `e`'s start, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = eIdx ⟨(j 0).val, (j 0).isLt⟩ := by
    funext b; refine Fin.ext ?_
    match b with
    | ⟨0, _⟩ => rfl
    | ⟨1, _⟩ => rfl
  rw [hsi]
  rfl

/-- The vector scatter's window coordinate (its one axis is inserted): none. -/
theorem vecScatter_window0 {N E : Nat}
    (wf : ScatterDims.WF ⟨1, ![N]⟩ ⟨2, ![E, 1]⟩ ⟨1, ![E]⟩ [] [0] [0] 1)
    (j : (⟨1, ![E]⟩ : Shape).Idx) : (vecScatterDims N E wf).window j 0 = 0 := rfl

/-- WHERE A SCALAR UPDATE LANDS: update `e` lands on entry `n` exactly when edge `e`'s start, read signed and
    not clamped, is `n`. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  unfold ScatterDims.resultIdx?
  constructor
  · intro h
    split at h
    · rename_i hc
      have hi := Option.some.inj h
      have h0 : ((vecScatterDims N E wf).start j idx 0
          + ((vecScatterDims N E wf).window j 0 : Int)).toNat = (i 0).val :=
        congrArg Fin.val (congrFun hi 0)
      have c0 := (hc 0).1
      rw [vecScatter_start0, vecScatter_window0] at h0 c0
      omega
    · exact absurd h (by simp)
  · intro h0
    have hi0 : (i 0).val < N := (i 0).isLt
    have hc : ∀ a, 0 ≤ (vecScatterDims N E wf).start j idx a + ((vecScatterDims N E wf).window j a : Int)
        ∧ (vecScatterDims N E wf).start j idx a + ((vecScatterDims N E wf).window j a : Int)
          < (((⟨1, ![N]⟩ : Shape).size a : Nat) : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hc]
    congr 1
    funext a; refine Fin.ext ?_
    obtain rfl : a = 0 := Subsingleton.elim _ _
    show ((vecScatterDims N E wf).start j idx 0 + ((vecScatterDims N E wf).window j 0 : Int)).toNat = (i 0).val
    rw [vecScatter_start0, vecScatter_window0, h0]; omega

end Scatter

/-! ## A nonnegative real factor through a finite sum -/

/-- A nonnegative real factor distributes over every finite sum of extended reals, whatever its terms. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The law -/

/-- THE LAW. With every factor `dinv n` a nonnegative real: aggregating (at the destinations `dst`) the rows of
    the pre-scaled table `L · dinv` read at the sources `src`, and scaling row `n` of the result by `dinv n`, is
    aggregating the rows of `L` read at the sources, each scaled by the product of its two endpoint factors. -/
theorem agg_law {N E C w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (L : (⟨2, ![N, C]⟩ : Shape).Idx → EReal) (dinv : (⟨1, ![N]⟩ : Shape).Idx → EReal)
    (hd : ∀ n, ∃ r : ℝ, 0 ≤ r ∧ dinv n = (r : EReal))
    (src : IVec ⟨2, ![E, 1]⟩ w) (dst : IVec ⟨2, ![E, 1]⟩ v) (i : (⟨2, ![N, C]⟩ : Shape).Idx) :
    (Ideal.hostScatterAdd (rowScatterDims N E C wfS) (fun _ => (0 : EReal)) dst
        (Host.gather (rowGatherDims N E C wfG) (fun p => L p * dinv (ix1 ⟨(p 0).val, idx2_lt0 p⟩)) src)) i
      * dinv (ix1 ⟨(i 0).val, idx2_lt0 i⟩)
    = Ideal.hostScatterAdd (rowScatterDims N E C wfS) (fun _ => (0 : EReal)) dst
        (fun j => Host.gather (rowGatherDims N E C wfG) L src j
          * (Host.gather (vecGatherDims N E wfg) dinv src (ix1 ⟨(j 0).val, idx2_lt0 j⟩)
            * Host.gather (vecGatherDims N E wfg) dinv dst (ix1 ⟨(j 0).val, idx2_lt0 j⟩))) i := by
  obtain ⟨r, hr, hdr⟩ := hd (ix1 ⟨(i 0).val, idx2_lt0 i⟩)
  unfold Ideal.hostScatterAdd
  rw [zero_add, zero_add, hdr, sum_mul_coe _ _ r hr]
  refine Finset.sum_congr rfl (fun j hj => ?_)
  have hland := (rowScatter_resultIdx wfS dst j i).mp (Finset.mem_filter.mp hj).2
  have e1 : clampRow hN dst ⟨(j 0).val, idx2_lt0 j⟩ = ⟨(i 0).val, idx2_lt0 i⟩ :=
    clampRow_of_eq hN dst _ _ hland.1
  beta_reduce
  rw [rowGather_apply hN wfG, rowGather_apply hN wfG, vecGather_apply hN wfg, vecGather_apply hN wfg]
  show L (ix2 (clampRow hN src ⟨(j 0).val, idx2_lt0 j⟩) ⟨(j 1).val, idx2_lt1 j⟩)
        * dinv (ix1 (clampRow hN src ⟨(j 0).val, idx2_lt0 j⟩)) * (r : EReal)
      = L (ix2 (clampRow hN src ⟨(j 0).val, idx2_lt0 j⟩) ⟨(j 1).val, idx2_lt1 j⟩)
        * (dinv (ix1 (clampRow hN src ⟨(j 0).val, idx2_lt0 j⟩))
          * dinv (ix1 (clampRow hN dst ⟨(j 0).val, idx2_lt0 j⟩)))
  rw [e1, hdr, mul_assoc]

/-! ## The degree count -/

/-- Scatter-adding ones into zeros counts: entry `n` is the number of edges whose start, read signed, is `n`. -/
theorem degree_eq_card {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    Ideal.hostScatterAdd (vecScatterDims N E wf) (fun _ => (0 : EReal)) idx (fun _ => (1 : EReal)) n
      = (((Finset.univ.filter (fun j : (⟨1, ![E]⟩ : Shape).Idx =>
          (idx (eIdx ⟨(j 0).val, (j 0).isLt⟩)).toInt = ((n 0).val : Int))).card : ℝ) : EReal) := by
  unfold Ideal.hostScatterAdd
  rw [zero_add, Finset.sum_const, nsmul_one, EReal.coe_coe_eq_natCast]
  congr 2
  exact Finset.filter_congr (fun j _ => vecScatter_resultIdx wf idx j n)

/-- … so it is a natural number, a nonnegative real. -/
theorem degree_real {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    ∃ k : ℕ, Ideal.hostScatterAdd (vecScatterDims N E wf) (fun _ => (0 : EReal)) idx (fun _ => (1 : EReal)) n
      = ((k : ℝ) : EReal) :=
  ⟨_, degree_eq_card wf idx n⟩

/-! ## The host's accumulating scatter at the ideal instance -/

/-- At the ideal instance the host's accumulating float scatter IS the exact sum (definitional). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.LibIntScatter.lean ====
/-
  A general lemma on the host's integer scatter: scatter-adding the word 1 into a vector of zero words at starts given
  by an [E, 1] column counts, in 32-bit arithmetic, the starts that name each entry. The scatter is a left fold over
  the updates in row-major order; word addition is commutative and associative, so the fold at an entry is the number
  of updates that land on it, as a word.

  In order:
    * the fold of the scatter step over ANY list of update numbers, read at an entry: the accumulator's entry plus
      the count of list elements whose update lands there (`foldl_addi_one_apply`, by induction on the list with the
      accumulator general);
    * the count of a predicate along the list of all positions below m is the card of its filter (`countP_finRange`);
    * the scatter of ones at any dimension numbers: the row-major numbering is a bijection between update indices
      and positions, so the count over positions is the card over update indices (`scatter_addi_one_apply`);
    * the vector scatter at an [E, 1] column of starts (`ones_apply`): an update lands on entry n exactly when its
      start, read signed, is n.
-/
import proofs.«407241_j68152541053489_3_alg».proof.Proof.LibSegNorm
import Mathlib.Data.Fintype.Basic
import Mathlib.Data.Finset.Card
import Mathlib.Data.Multiset.Filter

noncomputable section

open scoped BigOperators
open Idealize.ShloMosaic Idealize.ShloMosaic.ValueIdx

namespace IntScatter

/-- The left fold of the scatter step with word addition and every update the word 1: at entry i the fold over a
    list of update numbers is the accumulator's entry plus, as a word, the number of list elements whose update
    lands on i. An update that lands on i adds 1 there and one more to the count; an update that lands elsewhere,
    or nowhere, changes neither. -/
theorem foldl_addi_one_apply {s si u : Shape} {w : Nat} (d : ScatterDims s si u) (idx : IVec si w)
    (l : List (Fin u.numel)) (r : s.Idx → BitVec 32) (i : s.Idx) :
    (l.foldl (fun r n =>
        match d.resultIdx? (u.rowMajor.symm n) idx with
        | some i => fun i' => if i' = i then IntOp.addi (r i) (1#32 : BitVec 32) else r i'
        | none => r) r) i
      = r i + BitVec.ofNat 32 (l.countP (fun n => decide (d.resultIdx? (u.rowMajor.symm n) idx = some i))) := by
  induction l generalizing r with
  | nil => simp
  | cons n l ih =>
    rw [List.foldl_cons, ih, List.countP_cons]
    cases hn : d.resultIdx? (u.rowMajor.symm n) idx with
    | none =>
      simp
    | some i0 =>
      by_cases h : i = i0
      · subst h
        simp [IntOp.addi, BitVec.ofNat_add, BitVec.add_assoc, BitVec.add_comm]
      · have h' : ¬ (i0 = i) := fun e => h e.symm
        simp [h, h']

/-- Counting a predicate along the list of all positions below m is the card of its filter over them: the list has
    no repetition and is the underlying list of the set of all positions. -/
theorem countP_finRange {m : Nat} (p : Fin m → Prop) [DecidablePred p] :
    (List.finRange m).countP (fun n => decide (p n)) = (Finset.univ.filter p).card := by
  rw [Fin.univ_def]
  simp [Finset.card, Finset.filter, List.countP_eq_length_filter]

/-- The host's scatter of ones under word addition, at any dimension numbers: entry i is the operand's entry plus,
    as a word, the number of update indices whose update lands on i. -/
theorem scatter_addi_one_apply {s si u : Shape} {w : Nat} (d : ScatterDims s si u) (x : s.Idx → BitVec 32)
    (idx : IVec si w) (i : s.Idx) :
    Host.scatter d IntOp.addi x idx (fun _ => (1#32 : BitVec 32)) i
      = x i + BitVec.ofNat 32 (Finset.univ.filter (fun j : u.Idx => d.resultIdx? j idx = some i)).card := by
  unfold Host.scatter
  refine (foldl_addi_one_apply d idx _ x i).trans ?_
  rw [countP_finRange (fun n => d.resultIdx? (u.rowMajor.symm n) idx = some i)]
  congr 2
  exact Finset.card_equiv u.rowMajor.symm (fun n => by simp)

/-- Scatter-adding ones into zero words counts: entry n is, as a 32-bit word, the number of starts that, read signed,
    equal n. -/
theorem ones_apply {N E : Nat}
    (wf : ScatterDims.WF ⟨1, ![N]⟩ ⟨2, ![E, 1]⟩ ⟨1, ![E]⟩ [] [0] [0] 1)
    (idx : IVec ⟨2, ![E, 1]⟩ 32) (n : (⟨1, ![N]⟩ : Shape).Idx) :
    Host.scatter (SegNorm.vecScatterDims N E wf) IntOp.addi (fun _ => (0#32 : BitVec 32)) idx (fun _ => (1#32 : BitVec 32)) n
      = BitVec.ofNat 32 (Finset.univ.filter (fun j : (⟨1, ![E]⟩ : Shape).Idx =>
          (idx (SegNorm.eIdx ⟨(j 0).val, (j 0).isLt⟩)).toInt = ((n 0).val : Int))).card := by
  rw [scatter_addi_one_apply, BitVec.zero_add]
  congr 2
  exact Finset.filter_congr (fun j _ => SegNorm.vecScatter_resultIdx wf idx j n)

end IntScatter

end
-- ==== Proof.PrefixCounts.lean ====
/-
  The three per-class rows the pallas_call reads, in terms of the labels.

  Before the call the host counts the classes (an integer scatter-add of ones at the labels, converted to float — with
  in-range labels entry c is the number of samples labelled c, far below 2^31, so the word is the count), takes logs
  and reciprocals of the sizes, each guarded to 0 on an empty class, and reshapes sizes, logs and reciprocals to
  1 × 64 rows, which every grid point reads whole.

  In order: the host's wrap of a negative label does nothing to an in-range one; the scatter-add of ones counts, as a
  32-bit word, the samples carrying each label, and the samples are in bijection with the rank-1 indices the scatter
  ranges over; a count of at most 262144 read signed is itself; the compare of a size with zero selects exactly on a
  positive size; entry c of a 64-vector is entry (0, c) of it as a row. Then each window's block is its whole array,
  each array is opened to the operations that wrote it over the launched labels, and the three rows are read at (0, c).
-/
import proofs.«407241_j68152541053489_3_alg».proof.Proof.Gen.KernelIdeal.Frame.Runs
import proofs.«407241_j68152541053489_3_alg».proof.Proof.Blocks
import proofs.«407241_j68152541053489_3_alg».proof.Proof.Spec
import proofs.«407241_j68152541053489_3_alg».proof.Proof.LibSegNorm
import proofs.«407241_j68152541053489_3_alg».proof.Proof.LibIntScatter
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.Lib.StableHlo.Run

noncomputable section

open scoped BigOperators

namespace Cert.KernelIdeal.PrefixCounts

open Cert.KernelIdeal Cert.KernelIdeal.Gen Cert.KernelIdeal.Blocks Cert.Loss
open Idealize.ShloMosaic Idealize.ShloMosaic.TcCoe Idealize.SL.Sem Idealize.ShloMosaic.ValueIdx

variable (m : (ℓ : Loc nD τ sig) → Buf (Elt Ideal) ℓ)

/-! ## The class sizes as the host computes them -/

/-- The labels with a negative one moved up by 64 (the host's wrap of a negative index). -/
def wrapLab (lab : IVec S262144 32) : IVec S262144 32 :=
  select
    (cmpi CmpIPredicate.slt lab (broadcastInDim S262144 ![] Facts₀.bcast_S_S262144 (constantI S_ 32 0#32)))
    (addi lab (broadcastInDim S262144 ![] Facts₀.bcast_S_S262144 (constantI S_ 32 64#32)))
    lab

/-- The class-size words: ones scatter-added into zero words at the wrapped labels. -/
def cntW (lab : IVec S262144 32) : IVec S64 32 :=
  Host.scatter scatter_S64_S262144x1_S262144_n_0_0_1 IntOp.addi
    (broadcastInDim S64 ![] Facts₀.bcast_S_S64 (constantI S_ 32 0#32))
    (broadcastInDim S262144x1 ![0] Facts₀.bcast_S262144_S262144x1_0 (wrapLab lab))
    (broadcastInDim S262144 ![] Facts₀.bcast_S_S262144 (constantI S_ 32 1#32))

/-- The class sizes as numbers: the words read signed. -/
def cntF (lab : IVec S262144 32) : FVec Ideal S64 .f32 := sitofp .f32 (cntW lab)

/-- A word that is not negative is not below zero. -/
theorem slt_zero_of_nonneg (x : BitVec 32) (h : 0 ≤ x.toInt) : IntOp.cmpi CmpIPredicate.slt x 0#32 = 0#1 := by
  have h0 : x.slt 0#32 = false := by
    unfold BitVec.slt
    exact decide_eq_false (by rw [BitVec.toInt_zero]; omega)
  show BitVec.ofBool (x.slt 0#32) = 0#1
  rw [h0]; rfl

/-- An in-range label is not wrapped. -/
theorem wrapLab_apply (lab : IVec S262144 32) (hl : InRange lab) (i : Fin 262144) :
    wrapLab lab (ix1 i) = lab (ix1 i) := by
  show Scalar.select (IntOp.cmpi CmpIPredicate.slt (lab (ix1 i)) 0#32) _ _ = _
  rw [slt_zero_of_nonneg _ (hl i).1]
  exact select_zero _ _

/-- The label column read at a row. -/
theorem col_apply (x : IVec S262144 32) (e : Fin 262144) :
    broadcastInDim S262144x1 ![0] Facts₀.bcast_S262144_S262144x1_0 x (SegNorm.eIdx e) = x (ix1 e) := by
  refine broadcastInDim_apply _ _ _ _ (ix1 e) (fun a => ?_)
  obtain rfl : a = 0 := Subsingleton.elim _ _
  rw [if_neg (by decide)]
  rfl

/-- The printed dimension numbers are the vector scatter's. -/
theorem dims_eq : scatter_S64_S262144x1_S262144_n_0_0_1
    = SegNorm.vecScatterDims 64 262144 Facts₀.scatter_S64_S262144x1_S262144_n_0_0_1_wf := rfl

/-- THE COUNT: with in-range labels the word of class cc is the number of samples labelled cc. -/
theorem cntW_apply (lab : IVec S262144 32) (hl : InRange lab) (cc : Fin 64) :
    cntW lab (ix1 cc) = BitVec.ofNat 32 (cnt lab cc) := by
  have hz : (broadcastInDim S64 ![] Facts₀.bcast_S_S64 (constantI S_ 32 0#32) : IVec S64 32)
      = fun _ => (0#32 : BitVec 32) := rfl
  have ho : (broadcastInDim S262144 ![] Facts₀.bcast_S_S262144 (constantI S_ 32 1#32) : IVec S262144 32)
      = fun _ => (1#32 : BitVec 32) := rfl
  unfold cntW
  rw [dims_eq, hz, ho, IntScatter.ones_apply]
  refine congrArg (BitVec.ofNat 32) ?_
  unfold cnt
  refine Finset.card_equiv (idxEquiv1 (n := 262144)) (fun j => ?_)
  rw [Finset.mem_filter, Finset.mem_filter, col_apply, wrapLab_apply lab hl]
  exact and_congr (iff_of_true (Finset.mem_univ _) (Finset.mem_univ _)) Iff.rfl

/-- A class has at most as many samples as there are. -/
theorem cnt_le (lab : IVec S262144 32) (cc : Fin 64) : cnt lab cc ≤ 262144 := by
  unfold cnt
  exact (Finset.card_filter_le _ _).trans (by simp)

/-- The class sizes as numbers. -/
theorem cntF_apply (lab : IVec S262144 32) (hl : InRange lab) (cc : Fin 64) :
    cntF lab (ix1 cc) = ((cnt lab cc : ℝ) : EReal) := by
  show (((cntW lab (ix1 cc)).toInt : ℝ) : EReal) = _
  rw [cntW_apply lab hl cc]
  have hle := cnt_le lab cc
  have hi : (BitVec.ofNat 32 (cnt lab cc)).toInt = (cnt lab cc : Int) := by
    rw [BitVec.toInt_eq_toNat_cond, BitVec.toNat_ofNat]
    omega
  rw [hi, Int.cast_natCast]

/-- The guard on an empty class: the host's compare of a size with zero selects exactly on a positive size. -/
theorem guard_apply (n : ℕ) (a : EReal) :
    Scalar.select (Ideal.cmp CmpFPredicate.ogt ((n : ℝ) : EReal) 0) a 0 = if 0 < n then a else 0 := by
  show Scalar.select (BitVec.ofBool (decide ((0 : EReal) < ((n : ℝ) : EReal)))) a 0 = _
  by_cases h : 0 < n
  · have h' : (0 : EReal) < ((n : ℝ) : EReal) := EReal.coe_pos.mpr (Nat.cast_pos.mpr h)
    rw [decide_eq_true h', if_pos h]
    exact select_one _ _
  · have h' : ¬ (0 : EReal) < ((n : ℝ) : EReal) := fun h'' => h (Nat.cast_pos.mp (EReal.coe_pos.mp h''))
    rw [decide_eq_false h', if_neg h]
    exact select_zero _ _

/-- Entry cc of a 64-vector is entry (0, cc) of it as a 1 × 64 row. -/
theorem row_apply {α : Type} (x : S64.Idx → α) (cc : Fin 64) :
    shapeCast S1x64 x Facts₀.shapeCasts_S64_S1x64 (ix2 (0 : Fin 1) cc) = x (ix1 cc) := by
  refine shapeCast_apply x _ _ (ix1 cc) ?_
  rw [Shape.rowMajor_val_one, Shape.rowMajor_val_two]
  show cc.val = (0 : Fin 1).val * 64 + cc.val
  simp

/-! ## The three windows read their arrays whole -/

/-- Windows 3, 4 and 5 are at block (0, 0) at every grid point. -/
theorem idx345 : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- Window 3's block at any point is the whole row of sizes. -/
theorem blk3_read (c : Dev nD) (t : Fin cfg0.N) (y : S1x64.Idx) : blk3 m c t y = V m c main_v19 y := by
  obtain ⟨⟨e0, e1⟩, -, -⟩ := idx345 t
  have he : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 64 + 1 * (y 1).val = (y 1).val; omega
  show V m c main_v19 (((cfg0.win 3).blk t).view.emb y) = _
  rw [he]

/-- Window 4's block at any point is the whole row of logs. -/
theorem blk4_read (c : Dev nD) (t : Fin cfg0.N) (y : S1x64.Idx) : blk4 m c t y = V m c main_v14 y := by
  obtain ⟨-, ⟨e0, e1⟩, -⟩ := idx345 t
  have he : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  show V m c main_v14 (((cfg0.win 4).blk t).view.emb y) = _
  rw [he]

/-- Window 5's block at any point is the whole row of reciprocals. -/
theorem blk5_read (c : Dev nD) (t : Fin cfg0.N) (y : S1x64.Idx) : blk5 m c t y = V m c main_v18 y := by
  obtain ⟨-, -, e0, e1⟩ := idx345 t
  have he : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 64 + 1 * (y 1).val = (y 1).val; omega
  show V m c main_v18 (((cfg0.win 5).blk t).view.emb y) = _
  rw [he]

/-! ## The three arrays as the host operations leave them -/

set_option maxHeartbeats 2000000 in
/-- The row of sizes: the size numbers as a 1 × 64 row. -/
theorem V19 (c : Dev nD) : (V m c main_v19 : S1x64.Idx → EReal)
    = shapeCast S1x64 (cntF (argLab m c)) Facts₀.shapeCasts_S64_S1x64 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The row of logs: the log of each size where the size is positive, the zero constant elsewhere. -/
theorem V14 (c : Dev nD) : (V m c main_v14 : S1x64.Idx → EReal)
    = shapeCast S1x64
        (select
          (cmpf CmpFPredicate.ogt (cntF (argLab m c))
            (broadcastInDim S64 ![] Facts₀.bcast_S_S64 (constant (F := Ideal) S_ .f32 0x00000000#32)))
          (Host.log (cntF (argLab m c)))
          (broadcastInDim S64 ![] Facts₀.bcast_S_S64 (constant (F := Ideal) S_ .f32 0x00000000#32)))
        Facts₀.shapeCasts_S64_S1x64 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 2000000 in
/-- The row of reciprocals: one over each size where the size is positive, the zero constant elsewhere. -/
theorem V18 (c : Dev nD) : (V m c main_v18 : S1x64.Idx → EReal)
    = shapeCast S1x64
        (select
          (cmpf CmpFPredicate.ogt (cntF (argLab m c))
            (broadcastInDim S64 ![] Facts₀.bcast_S_S64 (constant (F := Ideal) S_ .f32 0x00000000#32)))
          (Host.divf (broadcastInDim S64 ![] Facts₀.bcast_S_S64 (constant (F := Ideal) S_ .f32 0x3F800000#32))
            (cntF (argLab m c)))
          (broadcastInDim S64 ![] Facts₀.bcast_S_S64 (constant (F := Ideal) S_ .f32 0x00000000#32)))
        Facts₀.shapeCasts_S64_S1x64 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-! ## The rows at an entry -/

/-- The row of class sizes, with in-range labels: entry cc is the number of samples labelled cc. -/
theorem blk3_apply (c : Dev nD) (hl : InRange (argLab m c)) (t : Fin cfg0.N) (cc : Fin 64) :
    blk3 m c t (ix2 (0 : Fin 1) cc) = ((cnt (argLab m c) cc : ℝ) : EReal) := by
  rw [blk3_read m c t, V19 m c, row_apply]
  exact cntF_apply _ hl cc

/-- The row of logs of class sizes. -/
theorem blk4_apply (c : Dev nD) (hl : InRange (argLab m c)) (t : Fin cfg0.N) (cc : Fin 64) :
    blk4 m c t (ix2 (0 : Fin 1) cc) = logc (cnt (argLab m c)) cc := by
  rw [blk4_read m c t, V14 m c, row_apply]
  show Scalar.select
      (Ideal.cmp CmpFPredicate.ogt (cntF (argLab m c) (ix1 cc)) (Ideal.ofBits .f32 0x00000000#32))
      (Ideal.log (cntF (argLab m c) (ix1 cc))) (Ideal.ofBits .f32 0x00000000#32) = _
  rw [cntF_apply _ hl cc, Ideal.ofBits_zero_f32, guard_apply]
  rfl

/-- The row of reciprocals of class sizes. -/
theorem blk5_apply (c : Dev nD) (hl : InRange (argLab m c)) (t : Fin cfg0.N) (cc : Fin 64) :
    blk5 m c t (ix2 (0 : Fin 1) cc) = invc (cnt (argLab m c)) cc := by
  rw [blk5_read m c t, V18 m c, row_apply]
  show Scalar.select
      (Ideal.cmp CmpFPredicate.ogt (cntF (argLab m c) (ix1 cc)) (Ideal.ofBits .f32 0x00000000#32))
      (Ideal.div (Ideal.ofBits .f32 0x3F800000#32) (cntF (argLab m c) (ix1 cc))) (Ideal.ofBits .f32 0x00000000#32) = _
  rw [cntF_apply _ hl cc, Ideal.ofBits_zero_f32, Ideal.ofBits_one_f32, guard_apply]
  rfl

end Cert.KernelIdeal.PrefixCounts

end
-- ==== Proof.KValue.lean ====
/-
  The kernel program's result: the loss in its softplus arrangement.

  Grid point t's tile has, in cell (0, 0), the loss of the 4096 samples 4096 t … 4096 t + 4095 (the tile lemma over the
  windows' contents), and zero elsewhere; the run adds the 64 points' cells; and 64 slabs of 4096 samples are all
  262144 samples.
-/
import proofs.«407241_j68152541053489_3_alg».proof.Proof.Accum
import proofs.«407241_j68152541053489_3_alg».proof.Proof.Prefix
import proofs.«407241_j68152541053489_3_alg».proof.Proof.PrefixCounts
import proofs.«407241_j68152541053489_3_alg».proof.Proof.Tile
import proofs.«407241_j68152541053489_3_alg».proof.Proof.Blocks
import proofs.«407241_j68152541053489_3_alg».proof.Proof.Spec

noncomputable section

open scoped BigOperators

namespace Cert.KernelIdeal.KValue

open Cert.KernelIdeal Cert.KernelIdeal.Gen Cert.KernelIdeal.Blocks Cert.KernelIdeal.Tile Cert.Loss
open Idealize.ShloMosaic Idealize.ShloMosaic.TcCoe Idealize.SL.Sem Idealize.ShloMosaic.ValueIdx

variable (m : (ℓ : Loc nD τ sig) → Buf (Elt Ideal) ℓ) (ρ : Dev nD → PrngReg)

/-- The loss of the slab of 4096 samples that grid point t reads. -/
def slabLoss (c : Dev nD) (t : Fin cfg0.N) : EReal :=
  ∑ r : Fin 4096, rowK (logit (argF1 m c) (argCen m c) (rowOf t r)) (cnt (argLab m c)) (labIdx (argLab m c) (rowOf t r))

/-- Grid point t's tile: its slab's loss in cell (0, 0), zero elsewhere. -/
theorem tile_eq (c : Dev nD) (hf : Finite (argF1 m c)) (hg : Finite (argCen m c)) (hl : InRange (argLab m c))
    (t : Fin cfg0.N) (a : Fin 8) (b : Fin 128) :
    addTile (F := Ideal) (blk0 m c t) (blk1 m c t) (blk2 m c t) (blk3 m c t) (blk4 m c t) (blk5 m c t) (ix2 a b)
      = if a.val = 0 ∧ b.val = 0 then slabLoss m c t else 0 := by
  rw [addTile_apply (blk0 m c t) (blk1 m c t) (blk2 m c t) (blk3 m c t) (blk4 m c t) (blk5 m c t)
    (fun cc k => argCen m c (ix2 cc k)) (cnt (argLab m c)) (fun r => labIdx (argLab m c) (rowOf t r))
    (fun r k => by rw [Prefix.blk0_apply]; exact hf _)
    (fun cc k => hg _)
    (fun cc k => Prefix.blk1_apply m c hg t cc k)
    (fun r => by rw [Prefix.blk2_apply]; exact labIdx_toInt hl _)
    (fun cc => PrefixCounts.blk3_apply m c hl t cc)
    (fun cc => PrefixCounts.blk4_apply m c hl t cc)
    (fun cc => PrefixCounts.blk5_apply m c hl t cc) a b]
  simp only [Prefix.blk0_apply]
  rfl

/-- The 64 slabs are the 262144 samples. -/
theorem sum_slabs (c : Dev nD) :
    (∑ t : Fin cfg0.N, slabLoss m c t) = lossK (argF1 m c) (argCen m c) (argLab m c) := by
  unfold lossK
  rw [← sum_blocks (fun i => rowK (logit (argF1 m c) (argCen m c) i) (cnt (argLab m c)) (labIdx (argLab m c) i))]
  exact Fintype.sum_equiv (finCongr N_0) _ _ (fun t => rfl)

/-- THE KERNEL PROGRAM'S VALUE: on finite float arguments with in-range labels every weakly fair execution ends with
    the result at the loss, the arguments unchanged. -/
theorem run_value (hf : ∀ c, Finite (argF1 m c)) (hg : ∀ c, Finite (argCen m c)) (hl : ∀ c, InRange (argLab m c)) :
    θ_run defs (onTc (τ := τ) (main (F := Ideal))) ⟨m, fun _ => 0, ρ⟩ (fun r => ∀ c : Dev nD,
      r.2.mem ((c.tc : Thread nD τ).loc main_v30) = (fun _ => lossK (argF1 m c) (argCen m c) (argLab m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun _ => sum_slabs m c), (h c).2⟩)
    (Accum.run_value m ρ (slabLoss m) (fun c t a b => tile_eq m c (hf c) (hg c) (hl c) t a b))

end Cert.KernelIdeal.KValue

end
-- ==== Proof.RefTake.lean ====
/-
  The reference's own-class read. E is gathered along the class axis at each sample's label (negative labels wrapped by
  64, the gathered position clamped into 0 … 63, and the result replaced by a fill wherever the wrapped label is not in
  0 … 63). For a label that is a class number nothing is wrapped, clamped or filled: the read is E at (i, label i).
-/
import proofs.«407241_j68152541053489_3_alg».proof.Proof.RefRun
import proofs.«407241_j68152541053489_3_alg».proof.Proof.Spec
import proofs.«407241_j68152541053489_3_alg».proof.Proof.LibSegNorm
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

open scoped BigOperators

namespace Cert.ReferenceIdeal.Take

open Cert.ReferenceIdeal Cert.ReferenceIdeal.Read Cert.Loss Idealize.ShloMosaic Idealize.ShloMosaic.ValueIdx

/-- The dimension numbers of the gather along the class axis: axis 0 of E and of the starts is a batching axis, axis 1 of E is
    collapsed and start-indexed, the index vector lies on axis 2 of the [262144, 1, 1] starts. -/
abbrev gd : GatherDims S262144x64 S262144x1x1 S262144x1 := gather_S262144x64_S262144x1x1_S262144x1_n_1_0_0_1_2_11

/-- The leading coordinate of a rank-3 index is below the leading extent. -/
theorem idx3_lt0 {n0 n1 n2 : Nat} (j : (⟨3, ![n0, n1, n2]⟩ : Shape).Idx) : (j 0).val < n0 := (j 0).isLt

/-! ## The wrapped label -/

/-- The index of sample i in the [262144, 1, 1] column of start indices reads label i: an in-range label is not negative, so the
    wrap (add 64 to a negative label) leaves it as it is. -/
theorem wrapped_eq (x2 : (⟨S262144, .i32⟩ : BufTy).Contents (Elt Ideal)) (hl : InRange x2) (j : S262144x1x1.Idx) :
    val_main_call0_v5 (F := Ideal) x2 j = x2 (ix1 (⟨(j 0).val, idx3_lt0 j⟩ : Fin 262144)) := by
  rw [val_main_call0_v5_apply, val_main_call0_v4_apply, val_main_call0_v1_apply, val_main_v5_apply, val_main_call0_v0_apply,
    val_main_call0_c_apply]
  have hi : idx_main_v5 (idx_main_call0_v5 j) = ix1 (⟨(j 0).val, idx3_lt0 j⟩ : Fin 262144) := by
    funext a
    refine Fin.ext ?_
    match a with
    | ⟨0, _⟩ =>
      have h1 : (j 1).val < 1 := (j 1).isLt
      have h2 : (j 2).val < 1 := (j 2).isLt
      show (((j 0).val * 1 + (j 1).val) * 1 + (j 2).val) / 1 = (j 0).val
      omega
  rw [hi]
  have hneg : IntOp.cmpi .slt (x2 (ix1 (⟨(j 0).val, idx3_lt0 j⟩ : Fin 262144))) 0#32 ≠ 1#1 := by
    rw [Ne, IntOp.cmpi_slt, show (0#32 : BitVec 32).toInt = 0 from by decide]
    exact not_lt.2 (hl _).1
  exact if_neg hneg

/-! ## The range test -/

/-- For in-range labels the test 0 ≤ l ∧ l ≤ 63 holds at every index. -/
theorem test_one (x2 : (⟨S262144, .i32⟩ : BufTy).Contents (Elt Ideal)) (hl : InRange x2) (j : S262144x1x1.Idx) :
    val_main_call0_v11 (F := Ideal) x2 j = 1#1 := by
  rw [val_main_call0_v11_apply, val_main_call0_v7_apply, val_main_call0_v10_apply, val_main_call0_v6_apply, val_main_call0_c_2_apply,
    val_main_call0_v9_apply, val_main_call0_v8_apply, val_main_call0_c_1_apply, wrapped_eq x2 hl]
  refine IntOp.andi_eq_one.2 ⟨IntOp.cmpi_sge.2 ?_, IntOp.cmpi_sle.2 ?_⟩
  · rw [show (0#32 : BitVec 32).toInt = 0 from by decide]; exact (hl _).1
  · rw [show (63#32 : BitVec 32).toInt = 63 from by decide]; have := (hl ⟨(j 0).val, idx3_lt0 j⟩).2; omega

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- An and-reduction from 1 of an array that is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x hx _

/-- For in-range labels the reduced test is 1 at every row: nothing is replaced by the fill. -/
theorem keep_one (x2 : (⟨S262144, .i32⟩ : BufTy).Contents (Elt Ideal)) (hl : InRange x2) (j : S262144x1.Idx) :
    val_main_call0_v12 (F := Ideal) x2 j = 1#1 := by
  unfold val_main_call0_v12
  exact reduce_andi_of_all _ _ _ _ j rfl (test_one x2 hl)

/-! ## The gather read at a row -/

section Gather
variable {α : Type}

/-- The start-indices index result row y reads: (y 0, y 1, 0). -/
abbrev sIdx (y : S262144x1.Idx) : S262144x1x1.Idx := fun b => match b with
  | ⟨0, _⟩ => ⟨(y 0).val, idx2_lt0 y⟩
  | ⟨1, _⟩ => ⟨(y 1).val, idx2_lt1 y⟩
  | ⟨2, _⟩ => ⟨0, Nat.one_pos⟩

/-- The gather's operand index on axis 0, the batching axis: the result's row. -/
theorem take_idx0 (idx : IVec S262144x1x1 32) (y : S262144x1.Idx) :
    (gd.operandIdx y idx 0).val = (y 0).val := by
  show gd.start y idx 0 + gd.batchCoord y 0 + gd.offCoord y 0 = _
  have hb : (0 : Fin S262144x64.rank) ∈ gd.operandBatchingDims := List.mem_singleton.mpr rfl
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

/-- The gather's operand index on axis 1, the collapsed and start-indexed axis: the start read signed and clamped into 0 … 63. -/
theorem take_idx1 (idx : IVec S262144x1x1 32) (y : S262144x1.Idx) :
    (gd.operandIdx y idx 1).val = min (idx (sIdx y)).toInt.toNat 63 := by
  show gd.start y idx 1 + gd.batchCoord y 1 + gd.offCoord y 1 = _
  have hnb : (1 : Fin S262144x64.rank) ∉ gd.operandBatchingDims := fun h =>
    absurd (congrArg Fin.val (List.mem_singleton.mp h)) Nat.one_ne_zero
  have hc : (1 : Fin S262144x64.rank) ∈ gd.collapsedSliceDims := List.mem_singleton.mpr rfl
  have hm : (1 : Fin S262144x64.rank) ∈ gd.startIndexMap := List.mem_singleton.mpr rfl
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos hm]
  have hsi : gd.siIdx y ⟨List.idxOf (1 : Fin S262144x64.rank) gd.startIndexMap, List.idxOf_lt_length_iff.2 hm⟩ = sIdx y := by
    funext b; refine Fin.ext ?_
    match b with
    | ⟨0, _⟩ => rfl
    | ⟨1, _⟩ => rfl
    | ⟨2, _⟩ => rfl
  rw [hsi]
  rfl

/-- THE GATHER READ AT ROW i: when the start index of row i, read signed, is the class number c, the gather reads the operand at (i, c). -/
theorem take_gather (x : S262144x64.Idx → α) (idx : IVec S262144x1x1 32) (i : Fin 262144) (c : Fin 64)
    (hc : (idx (ix3 i (0 : Fin 1) (0 : Fin 1))).toInt = (c.val : Int)) :
    Host.gather gd x idx (ix2 i (0 : Fin 1)) = x (ix2 i c) := by
  unfold Host.gather
  congr 1
  funext a
  refine Fin.ext ?_
  match a with
  | ⟨0, _⟩ => exact take_idx0 idx (ix2 i (0 : Fin 1))
  | ⟨1, _⟩ =>
    refine (take_idx1 idx (ix2 i (0 : Fin 1))).trans ?_
    have hs : sIdx (ix2 i (0 : Fin 1)) = ix3 i (0 : Fin 1) (0 : Fin 1) := by
      funext b; refine Fin.ext ?_
      match b with
      | ⟨0, _⟩ => rfl
      | ⟨1, _⟩ => rfl
      | ⟨2, _⟩ => rfl
    rw [hs, hc, Int.toNat_natCast]
    have := c.isLt
    show min c.val 63 = c.val
    omega

end Gather

/-- THE OWN-CLASS READ: with in-range labels, row i of the gathered column is E at (i, class of i). -/
theorem take_apply (x0 : (⟨S262144x128, .f32⟩ : BufTy).Contents (Elt Ideal)) (x1 : (⟨S64x128, .f32⟩ : BufTy).Contents (Elt Ideal))
    (x2 : (⟨S262144, .i32⟩ : BufTy).Contents (Elt Ideal)) (hl : InRange x2) (i : Fin 262144) :
    val_main_v6 (F := Ideal) x0 x1 x2 (ix2 i (0 : Fin 1)) = val_main_v4 (F := Ideal) x0 x1 (ix2 i (labIdx x2 i)) := by
  rw [val_main_v6_apply, keep_one x2 hl]
  rw [show Scalar.select (1#1 : BitVec 1) (val_main_call0_v13 (F := Ideal) x0 x1 x2 (ix2 i (0 : Fin 1)))
      (val_main_call0_v14 (F := Ideal) (ix2 i (0 : Fin 1))) = val_main_call0_v13 (F := Ideal) x0 x1 x2 (ix2 i (0 : Fin 1)) from if_pos rfl]
  unfold val_main_call0_v13
  generalize val_main_v4 (F := Ideal) x0 x1 = E
  refine take_gather E _ i (labIdx x2 i) ?_
  rw [wrapped_eq x2 hl]
  exact labIdx_toInt hl i

end Cert.ReferenceIdeal.Take

end
-- ==== Proof.RefEntry.lean ====
/-
  The reference's last array before its total sum, read at (i, c): sample i's term against class c.

  E = exp(f1 · centresᵀ / T); pos_i = E at i's own class (a gather along the class axis, in range so never filled);
  the class sizes are a float scatter-add of ones at the labels (the exact count); n_i is the size of i's own class
  (a gather of the sizes at the label); the term is −log(pos_i / (pos_i + n_i E_ic)), kept where class c is present
  and is not i's own, else 0; divided by n_i.

  In order: a label that is a class number is not wrapped (`wrap_eq`), so both columns of starts hold the labels
  (`starts_scatter`, `starts_gather`); the class sizes (`sizes_apply`: the scatter-add of ones at the labels is the
  count of samples per label) and a sample's own class size (`own_size_apply`, `own_col_apply`: the gather of the
  sizes at the label, never clamped); E at an entry (`E_apply`: the contraction is the logit); the mask
  (`mask_apply`: a size compared above zero is "the class is not empty", the class numbers compared with the label
  is "not i's own class"); the term (`entry`).
-/
import proofs.«407241_j68152541053489_3_alg».proof.Proof.RefRun
import proofs.«407241_j68152541053489_3_alg».proof.Proof.Spec
import proofs.«407241_j68152541053489_3_alg».proof.Proof.LibSegNorm
import proofs.«407241_j68152541053489_3_alg».proof.Proof.RefTake
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

open scoped BigOperators

namespace Cert.ReferenceIdeal.Entry

open Cert.ReferenceIdeal Cert.ReferenceIdeal.Read Cert.Loss Idealize.ShloMosaic Idealize.ShloMosaic.ValueIdx

/-- A label that is not negative is not wrapped: the select on "label < 0" keeps the label. -/
theorem wrap_eq (b : BitVec 32) (h0 : 0 ≤ b.toInt) :
    Scalar.select (IntOp.cmpi .slt b 0#32) (IntOp.addi b 64#32) b = b := by
  have hc : IntOp.cmpi .slt b 0#32 = 0#1 := by
    unfold IntOp.cmpi
    have hs : b.slt 0#32 = false := by
      rw [BitVec.slt_eq_decide, decide_eq_false_iff_not]
      have : (0#32 : BitVec 32).toInt = 0 := by decide
      omega
    rw [hs]; rfl
  rw [hc, select_zero]

/-- The scatter's column of starts at edge e: the label of sample e. -/
theorem starts_scatter (x2 : (⟨S262144, .i32⟩ : BufTy).Contents (Elt Ideal)) (hl : InRange x2) (e : Fin 262144) :
    val_main_v13 (F := Ideal) x2 (SegNorm.eIdx e) = x2 (ix1 e) := by
  have hi : idx_main_v13 (SegNorm.eIdx e) = ix1 e := funext fun a => Fin.ext (by match a with | ⟨0, _⟩ => rfl)
  rw [val_main_v13_apply, val_main_v12_apply, val_main_v9_apply, val_main_v11_apply, val_main_v8_apply,
    val_main_v10_apply, val_main_c_apply, val_main_c_1_apply, hi]
  exact wrap_eq _ (hl e).1

/-- The gather's column of starts at edge e: the label of sample e. -/
theorem starts_gather (x2 : (⟨S262144, .i32⟩ : BufTy).Contents (Elt Ideal)) (hl : InRange x2) (e : Fin 262144) :
    val_main_v23 (F := Ideal) x2 (SegNorm.eIdx e) = x2 (ix1 e) := by
  have hi : idx_main_v23 (SegNorm.eIdx e) = ix1 e := funext fun a => Fin.ext (by match a with | ⟨0, _⟩ => rfl)
  rw [val_main_v23_apply, val_main_v22_apply, val_main_v19_apply, val_main_v21_apply, val_main_v18_apply,
    val_main_v20_apply, val_main_c_4_apply, val_main_c_5_apply, hi]
  exact wrap_eq _ (hl e).1

/-- The word 0x3F800000 denotes 1. -/
theorem ofBits_one_f32 : Ideal.ofBits .f32 0x3F800000#32 = 1 := by
  simp [Ideal.ofBits, Ideal.ieee, -EReal.coe_mul]; norm_num

/-- THE CLASS SIZES: entry c of the scatter-add of ones at the labels is the number of samples labelled c. -/
theorem sizes_apply (x2 : (⟨S262144, .i32⟩ : BufTy).Contents (Elt Ideal)) (hl : InRange x2) (c : Fin 64) :
    val_main_v15 (F := Ideal) x2 (ix1 c) = ((cnt x2 c : ℝ) : EReal) := by
  have h7 : val_main_v7 (F := Ideal) = fun _ => (0 : EReal) := funext fun j => by
    rw [val_main_v7_apply, val_main_cst_0_apply]; exact Ideal.ofBits_zero_f32
  have h14 : val_main_v14 (F := Ideal) = fun _ => (1 : EReal) := funext fun j => by
    rw [val_main_v14_apply, val_main_cst_2_apply]; exact ofBits_one_f32
  have hd : scatter_S64_S262144x1_S262144_n_0_0_1
      = SegNorm.vecScatterDims 64 262144 Facts₀.scatter_S64_S262144x1_S262144_n_0_0_1_wf := rfl
  unfold val_main_v15
  rw [h7, h14, SegNorm.scatterAdd_ideal, hd, SegNorm.degree_eq_card]
  refine congrArg (fun k : ℕ => ((k : ℝ) : EReal)) ?_
  unfold cnt
  refine Finset.card_equiv idxEquiv1 (fun j => ?_)
  simp only [Finset.mem_filter, Finset.mem_univ, true_and]
  rw [starts_scatter x2 hl]
  rfl

/-- THE OWN-CLASS SIZE: the sizes gathered at the labels give, at sample i, the size of i's class. -/
theorem own_size_apply (x2 : (⟨S262144, .i32⟩ : BufTy).Contents (Elt Ideal)) (hl : InRange x2) (i : Fin 262144) :
    val_main_v24 (F := Ideal) x2 (ix1 i) = ((cnt x2 (labIdx x2 i) : ℝ) : EReal) := by
  have hd : gather_S64_S262144x1_S262144_n_0_n_n_0_1_1
      = SegNorm.vecGatherDims 64 262144 Facts₀.gather_S64_S262144x1_S262144_n_0_n_n_0_1_1_wf := rfl
  have hN : 0 < 64 := by norm_num
  unfold val_main_v24
  rw [hd, SegNorm.vecGather_apply hN]
  have hc : SegNorm.clampRow hN (val_main_v23 (F := Ideal) x2) ⟨((ix1 i : (⟨1, ![262144]⟩ : Shape).Idx) 0).val,
      ((ix1 i : (⟨1, ![262144]⟩ : Shape).Idx) 0).isLt⟩ = labIdx x2 i :=
    SegNorm.clampRow_of_eq hN _ _ _ (by rw [starts_gather x2 hl]; exact labIdx_toInt hl i)
  rw [hc, sizes_apply x2 hl]

/-- E at (i, c): the exponential of the logit over the temperature. -/
theorem E_apply (x0 : (⟨S262144x128, .f32⟩ : BufTy).Contents (Elt Ideal)) (x1 : (⟨S64x128, .f32⟩ : BufTy).Contents (Elt Ideal))
    (i : Fin 262144) (c : Fin 64) :
    val_main_v4 (F := Ideal) x0 x1 (ix2 i c) = Ideal.exp (Ideal.div (logit x0 x1 i c) temp) := by
  have hL : ∀ k : Fin 128, lidx_main_v1 (ix2 i c) k = ix2 i k := fun k =>
    funext fun a => Fin.ext (by match a with | ⟨0, _⟩ => rfl | ⟨1, _⟩ => rfl)
  have hR : ∀ k : Fin 128, idx_main_v0 (ridx_main_v1 (ix2 i c) k) = ix2 c k := fun k =>
    funext fun a => Fin.ext (by match a with | ⟨0, _⟩ => rfl | ⟨1, _⟩ => rfl)
  have hs : (∑ k : Fin 128, x0 (lidx_main_v1 (ix2 i c) k) * val_main_v0 (F := Ideal) x1 (ridx_main_v1 (ix2 i c) k))
      = logit x0 x1 i c := by
    unfold logit
    refine Finset.sum_congr rfl fun k _ => ?_
    rw [val_main_v0_apply, hL, hR]
  rw [val_main_v4_apply, val_main_v3_apply, val_main_v2_apply, val_main_cst_apply, val_main_v1_apply, hs]
  rfl

/-- A class number as a 32-bit word reads back, signed, as itself. -/
theorem toInt_ofNat_lt (n : Nat) (h : n < 64) : (BitVec.ofNat 32 n).toInt = (n : Int) := by
  rw [BitVec.toInt_eq_toNat_cond, BitVec.toNat_ofNat]
  have hm : n % 2 ^ 32 = n := Nat.mod_eq_of_lt (by omega)
  rw [hm]
  split_ifs <;> omega

/-- THE MASK at (i, c): class c is present and is not i's own. -/
theorem mask_apply (x2 : (⟨S262144, .i32⟩ : BufTy).Contents (Elt Ideal)) (hl : InRange x2) (i : Fin 262144) (c : Fin 64) :
    val_main_v42 (F := Ideal) x2 (ix2 i c) = if 0 < cnt x2 c ∧ c ≠ labIdx x2 i then 1#1 else 0#1 := by
  have h41 : val_main_v41 (F := Ideal) x2 (ix2 i c) = if 0 < cnt x2 c then 1#1 else 0#1 := by
    have hi : idx_main_v36 (idx_main_v41 (ix2 i c)) = ix1 c :=
      funext fun a => Fin.ext (by match a with | ⟨0, _⟩ => rfl)
    rw [val_main_v41_apply, val_main_v36_apply, val_main_v17_apply, val_main_v16_apply, val_main_cst_3_apply, hi,
      sizes_apply x2 hl, Ideal.cmpf_def, Ideal.ofBits_def, Ideal.ofBits_zero_f32]
    show BitVec.ofBool (decide ((0 : EReal) < ((cnt x2 c : ℝ) : EReal))) = _
    by_cases h : 0 < cnt x2 c
    · have h' : (0 : EReal) < ((cnt x2 c : ℝ) : EReal) := EReal.coe_pos.mpr (Nat.cast_pos.mpr h)
      rw [if_pos h, decide_eq_true h']; rfl
    · have h' : ¬ (0 : EReal) < ((cnt x2 c : ℝ) : EReal) := fun hh => h (Nat.cast_pos.mp (EReal.coe_pos.mp hh))
      rw [if_neg h, decide_eq_false h']; rfl
  have h40 : val_main_v40 (F := Ideal) x2 (ix2 i c) = if c ≠ labIdx x2 i then 1#1 else 0#1 := by
    have hi : idx_main_v37 (idx_main_v39 (ix2 i c)) = ix1 i :=
      funext fun a => Fin.ext (by match a with | ⟨0, _⟩ => rfl)
    rw [val_main_v40_apply, val_main_v38_apply, val_main_v35_apply, val_main_v34_apply, val_main_v39_apply,
      val_main_v37_apply, hi]
    show BitVec.ofBool (BitVec.ofNat 32 c.val != x2 (ix1 i)) = _
    by_cases h : c = labIdx x2 i
    · have he : BitVec.ofNat 32 c.val = x2 (ix1 i) := BitVec.eq_of_toInt_eq (by
        rw [toInt_ofNat_lt _ c.isLt, labIdx_toInt hl i, h])
      have hb : (BitVec.ofNat 32 c.val != x2 (ix1 i)) = false := by rw [he]; exact bne_self_eq_false _
      rw [if_neg (not_not.mpr h), hb]; rfl
    · have he : BitVec.ofNat 32 c.val ≠ x2 (ix1 i) := fun e => h (Fin.ext (by
        have := congrArg BitVec.toInt e
        rw [toInt_ofNat_lt _ c.isLt, labIdx_toInt hl i] at this
        exact_mod_cast this))
      have hb : (BitVec.ofNat 32 c.val != x2 (ix1 i)) = true := bne_iff_ne.mpr he
      rw [if_pos h, hb]; rfl
  rw [val_main_v42_apply, h41, h40]
  by_cases h1 : 0 < cnt x2 c <;> by_cases h2 : c = labIdx x2 i <;> simp [h1, h2, IntOp.andi]

/-- The own-class size as a column, at row i. -/
theorem own_col_apply (x2 : (⟨S262144, .i32⟩ : BufTy).Contents (Elt Ideal)) (hl : InRange x2) (i : Fin 262144) :
    val_main_v25 (F := Ideal) x2 (ix2 i (0 : Fin 1)) = ((cnt x2 (labIdx x2 i) : ℝ) : EReal) := by
  have hi : idx_main_v25 (ix2 i (0 : Fin 1)) = ix1 i := funext fun a => Fin.ext (by match a with | ⟨0, _⟩ => rfl)
  rw [val_main_v25_apply, hi, own_size_apply x2 hl]

/-- THE REFERENCE'S TERM. With in-range labels, entry (i, c) of the array the reference sums is sample i's term
    against class c over the logits, the class sizes and i's class. -/
theorem entry (x0 : (⟨S262144x128, .f32⟩ : BufTy).Contents (Elt Ideal)) (x1 : (⟨S64x128, .f32⟩ : BufTy).Contents (Elt Ideal))
    (x2 : (⟨S262144, .i32⟩ : BufTy).Contents (Elt Ideal)) (hl : InRange x2) (i : Fin 262144) (c : Fin 64) :
    val_main_v45 (F := Ideal) x0 x1 x2 (ix2 i c) = termR (logit x0 x1 i) (cnt x2) (labIdx x2 i) c := by
  have e26 : idx_main_v26 (ix2 i c) = ix2 i (0 : Fin 1) :=
    funext fun a => Fin.ext (by match a with | ⟨0, _⟩ => rfl | ⟨1, _⟩ => rfl)
  have e28 : idx_main_v28 (ix2 i c) = ix2 i (0 : Fin 1) :=
    funext fun a => Fin.ext (by match a with | ⟨0, _⟩ => rfl | ⟨1, _⟩ => rfl)
  have e30 : idx_main_v30 (ix2 i c) = ix2 i (0 : Fin 1) :=
    funext fun a => Fin.ext (by match a with | ⟨0, _⟩ => rfl | ⟨1, _⟩ => rfl)
  have e44 : idx_main_v44 (ix2 i c) = ix2 i (0 : Fin 1) :=
    funext fun a => Fin.ext (by match a with | ⟨0, _⟩ => rfl | ⟨1, _⟩ => rfl)
  rw [val_main_v45_apply, val_main_v43_apply, val_main_v44_apply, e44, val_main_v33_apply, val_main_v32_apply,
    val_main_v31_apply, val_main_v30_apply, e30, val_main_v29_apply, val_main_v28_apply, e28, val_main_v27_apply,
    val_main_v26_apply, e26, own_col_apply x2 hl, Take.take_apply x0 x1 x2 hl, E_apply x0 x1 i (labIdx x2 i),
    E_apply x0 x1 i c, mask_apply x2 hl, val_main_call1_v1_apply, val_main_call1_v0_apply, val_main_cst_6_apply]
  unfold termR
  by_cases hP : 0 < cnt x2 c ∧ c ≠ labIdx x2 i
  · rw [if_pos hP, if_pos hP, select_one]
    rfl
  · rw [if_neg hP, if_neg hP, select_zero, Ideal.ofBits_def, Ideal.ofBits_zero_f32]
    rfl

end Cert.ReferenceIdeal.Entry

end
-- ==== Proof.RValue.lean ====
/-
  The reference program's result: the loss in its quotient arrangement.

  The reference ends in a total sum of a 262144 × 64 array from 0; the array's entry (i, c) is sample i's term against
  class c; summing the classes first gives each sample's row, and the rows the loss.
-/
import proofs.«407241_j68152541053489_3_alg».proof.Proof.RefRun
import proofs.«407241_j68152541053489_3_alg».proof.Proof.RefEntry
import proofs.«407241_j68152541053489_3_alg».proof.Proof.Spec

noncomputable section

open scoped BigOperators

namespace Cert.ReferenceIdeal.RValue

open Cert.ReferenceIdeal Cert.ReferenceIdeal.Read Cert.Loss
open Idealize.ShloMosaic Idealize.ShloMosaic.TcCoe Idealize.SL.Sem Idealize.ShloMosaic.ValueIdx

/-- The reference's total: 0 plus the sum of every entry is the sum over samples of their rows. -/
theorem total_eq (x0 : (⟨S262144x128, .f32⟩ : BufTy).Contents (Elt Ideal)) (x1 : (⟨S64x128, .f32⟩ : BufTy).Contents (Elt Ideal))
    (x2 : (⟨S262144, .i32⟩ : BufTy).Contents (Elt Ideal)) (hl : InRange x2) (y : S_.Idx) :
    val_main_v46 (F := Ideal) x0 x1 x2 y = lossR x0 x1 x2 := by
  rw [val_main_v46_apply, sum_idx2]
  have h0 : ∀ z, (val_main_cst_7 (F := Ideal)) z = 0 := fun z => by
    unfold val_main_cst_7
    exact Ideal.ofBits_zero_f32
  rw [h0, zero_add]
  unfold lossR rowR
  exact Finset.sum_congr rfl fun i _ => Finset.sum_congr rfl fun c _ => Entry.entry x0 x1 x2 hl i c

variable (m : (ℓ : Loc nD τ sig) → Buf (Elt Ideal) ℓ) (ρ : Dev nD → PrngReg)

/-- THE REFERENCE PROGRAM'S VALUE: with in-range labels every weakly fair execution ends with the result at the loss,
    the arguments unchanged. -/
theorem run_value (hl : ∀ c : Dev nD, InRange (m ((c.tc : Thread nD τ).loc main_arg2))) :
    θ_run defs (onTc (τ := τ) (main (F := Ideal))) ⟨m, fun _ => 0, ρ⟩ (fun r => ∀ c : Dev nD,
      r.2.mem ((c.tc : Thread nD τ).loc main_v46)
        = (fun _ => lossR (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((val_main_v46_eq m c).trans (funext fun y => total_eq _ _ _ (hl c) y)), (h c).2⟩)
    (Cert.ReferenceIdeal.Value.run (F := Ideal) m ρ)

end Cert.ReferenceIdeal.RValue

end
-- ==== Proof.PreFacts.lean ====
/-
  What the precondition says of the arguments: every entry of f1 and of the centres is a real number (its absolute
  value is below +∞), and every label lies in 0 … 63. The predicate is a conjunction of three all-reductions; each
  holds exactly when its element test holds everywhere.
-/
import proofs.«407241_j68152541053489_3_alg».proof.Pre_finite_inputs
import proofs.«407241_j68152541053489_3_alg».proof.Proof.Gen.Pre_finite_inputs
import proofs.«407241_j68152541053489_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Loss

variable [Cert.Pre_finite_inputs.Facts]

/-- A scalar index set has one element. -/
theorem subsingleton_scalarIdx : Subsingleton Cert.Pre_finite_inputs.S_.Idx :=
  ⟨fun _ _ => funext fun d => d.elim0⟩

/-- The f32 pattern 0x7F800000 (exponent all ones, fraction zero, sign clear) denotes +∞. -/
theorem inf_bits : Ideal.ofBits .f32 0x7F800000#32 = (⊤ : EReal) := by
  simp [Ideal.ofBits, Ideal.ieee]

/-- An extended real whose absolute value max x (−x) is below +∞ is a real number: x < ⊤ excludes ⊤, and −x < ⊤ excludes ⊥
    since −⊥ = ⊤. -/
theorem real_of_abs_lt_top {x : EReal} (hx : max x (-x) < ⊤) : x ≠ ⊤ ∧ x ≠ ⊥ := by
  obtain ⟨h1, h2⟩ := max_lt_iff.1 hx
  refine ⟨ne_of_lt h1, fun hb => ?_⟩
  rw [hb, EReal.neg_bot] at h2
  exact lt_irrefl _ h2

/-- The element test |x| < +∞ holding (the comparison's bit is one) says x is a real number. -/
theorem real_of_test {x : EReal}
    (hx : Ideal.cmp .olt (max x (-x)) (Ideal.ofBits .f32 0x7F800000#32) = 1#1) : x ≠ ⊤ ∧ x ≠ ⊥ := by
  rw [inf_bits] at hx
  simp only [Ideal.cmp, StableHlo.Predicate.ofBool_eq_one_iff, decide_eq_true_eq] at hx
  exact real_of_abs_lt_top hx

/-- The precondition all ones: the float arguments are finite and the labels are class numbers. -/
theorem of_pre (x0 : FVec Ideal Cert.Pre_finite_inputs.S262144x128 .f32) (x1 : FVec Ideal Cert.Pre_finite_inputs.S64x128 .f32)
    (x2 : IVec Cert.Pre_finite_inputs.S262144 32)
    (h : Cert.Pre_finite_inputs.fn (F := Ideal) x0 x1 x2 = fun _ => 1#1) :
    Finite x0 ∧ Finite x1 ∧ InRange x2 := by
  haveI := subsingleton_scalarIdx
  have h0 := congrFun h ValueIdx.ix0
  dsimp only [Cert.Pre_finite_inputs.fn] at h0
  -- the predicate is (all₀ ∧ all₁) ∧ all₂ on one-bit words
  obtain ⟨h01, h2⟩ := IntOp.andi_eq_one.1 h0
  obtain ⟨hA, hB⟩ := IntOp.andi_eq_one.1 h01
  refine ⟨fun j => ?_, fun j => ?_, fun i => ?_⟩
  · -- every entry of the first argument passes |x| < +∞
    have e := Host.reduce_andi_all _ _ _ _ _ hA j
    exact real_of_test e
  · have e := Host.reduce_andi_all _ _ _ _ _ hB j
    exact real_of_test e
  · -- every label passes 0 ≤ l and l < 64, read signed
    have e := Host.reduce_andi_all _ _ _ _ _ h2 (ix1 i)
    obtain ⟨e1, e2⟩ := IntOp.andi_eq_one.1 e
    have e1' : (0#32 : BitVec 32).toInt ≤ (x2 (ix1 i)).toInt := IntOp.cmpi_sge.1 e1
    have e2' : (x2 (ix1 i)).toInt < (64#32 : BitVec 32).toInt := IntOp.cmpi_slt.1 e2
    rw [show (0#32 : BitVec 32).toInt = 0 from by decide] at e1'
    rw [show (64#32 : BitVec 32).toInt = 64 from by decide] at e2'
    exact ⟨e1', e2'⟩

end Cert.PreFacts

end
-- ==== Proof.lean ====
/-
  A class-centre contrastive loss over 262144 samples of dimension 128 and 64 class centres, against its direct form.

  For sample i of class l, with logits L_c = <f1_i, centre_c>, class sizes n and temperature T, both programs compute
      Σ_i Σ_{c present, c ≠ l}  log(1 + n_l · exp((L_c − L_l) / T)) / n_l .
  The reference forms E = exp(L / T), pos = E at the own class, and −log(pos / (pos + n_l E_c)) / n_l. The kernel
  streams f1 in 64 slabs of 4096 rows over a 2 × 32 grid; per slab it forms the logits by one packed product of
  [x, x − x̂] against [[ĉ, ĉ], [c − ĉ, 0]] (x̂, ĉ the operands rounded to a narrower format: on exact numbers the
  residues vanish and the product is x · cᵀ), selects the own-class logit, log n_l and 1 / n_l by one-hot sums,
  evaluates softplus((L_c − L_l) · s + log n_l) in the overflow-free form max(a, 0) + log1p(e^{−|a|}) with s the exact
  reciprocal of T, masks, sums each row, weights by 1 / n_l, sums the slab and adds the scalar into cell (0, 0) of its
  core-row's 8 × 128 accumulator block; the host sums the 16 × 128 accumulator.

  The two arrangements agree because e^u / (e^u + n e^v) = 1 / (1 + e^{v − u + log n}) and the stable softplus is
  log(1 + e^a), on real numbers: finiteness of the inputs is used there, for x − x̂ = 0 and for moving the factor 1 / n_l
  across the row sum. Labels are class numbers 0 … 63: the one-hot selection then picks exactly the own class, and the
  two programs' class counts (an integer scatter-add of ones, and a float one) are the same number.

  The claims: the three programs run and keep their arguments (the two kernel programs by their generated frames, the
  reference by its run); the idealized kernel differs from the kernel by two recorded rewrites (a rounding round-trip
  read as the identity; the constant 20 read as the exact reciprocal of T); the two idealized programs end with equal
  results.
-/
import proofs.«407241_j68152541053489_3_alg».proof.Defs
import proofs.«407241_j68152541053489_3_alg».proof.Proof.Gen.Kernel
import proofs.«407241_j68152541053489_3_alg».proof.Proof.Gen.Kernel.Frame
import proofs.«407241_j68152541053489_3_alg».proof.Proof.Gen.KernelIdeal
import proofs.«407241_j68152541053489_3_alg».proof.Proof.Gen.KernelIdeal.Frame
import proofs.«407241_j68152541053489_3_alg».proof.Proof.Gen.ReferenceIdeal
import proofs.«407241_j68152541053489_3_alg».proof.Proof.Gen.Pre_finite_inputs
import proofs.«407241_j68152541053489_3_alg».proof.Proof.RefRun
import proofs.«407241_j68152541053489_3_alg».proof.Proof.KValue
import proofs.«407241_j68152541053489_3_alg».proof.Proof.RValue
import proofs.«407241_j68152541053489_3_alg».proof.Proof.PreFacts
import proofs.«407241_j68152541053489_3_alg».proof.Proof.Spec
import Idealize.ShloMosaic.PureOps.IdealRules
import Idealize.ShloMosaic.Adequacy
import Idealize.ShloMosaic.Init

noncomputable section

namespace Cert.Proof

open Idealize.ShloMosaic Idealize.SL.Sem Cert.Loss

/-- The kernel program runs and keeps its arguments. -/
theorem frame_p : Cert.frame_Kernel := fun m ρ _ => Cert.Kernel.Gen.frame m ρ

/-- The idealized kernel program runs and keeps its arguments. -/
theorem frame_pi : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two recorded rewrites: widening after narrowing is the identity on exact numbers; the named constant denotes
    the exact reciprocal of the temperature. -/
theorem preserves : Cert.preserves_Kernel_KernelIdeal :=
  ⟨IdealRules.truncf_extf.statement Cert.KernelIdeal.S4096x128 .f32 .bf16,
   IdealRules.named_const.statement Cert.KernelIdeal.κ "inv_temp" .f32 0x41A00000#32
     ((268435456 / 13421773 : ℝ) : EReal) rfl⟩

/-- On finite inputs with in-range labels the kernel program ends at the loss in its softplus arrangement, the
    reference at the loss in its quotient arrangement, of the same arguments: one number. -/
theorem algebraic : Cert.algebraic_KernelIdeal_ReferenceIdeal := by
  intro m ρ m' ρ' hpre hagree
  have hP := fun c => Cert.PreFacts.of_pre _ _ _ (hpre c)
  refine ⟨_, Cert.KernelIdeal.KValue.run_value m ρ (fun c => (hP c).1) (fun c => (hP c).2.1) (fun c => (hP c).2.2), ?_⟩
  refine (θ_run Cert.ReferenceIdeal.defs _ _).mono (fun _ h c => ⟨(h c).1.trans ?_, (h c).2⟩)
    (Cert.ReferenceIdeal.RValue.run_value m' ρ' (fun c => by rw [(hagree c).2.2]; exact (hP c).2.2))
  funext _
  rw [(hagree c).1, (hagree c).2.1, (hagree c).2.2]
  exact (lossK_eq_lossR (hP c).1 (hP c).2.1 (hP c).2.2).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
